-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S100000x512 : Shape := ⟨2, ![100000, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x512 .f32) (main_arg1 : FVec F S100000x512 .f32) (main_arg2 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg2 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  let main_c_4 : IVec S_ 32 := constantI S_ 32 100000#32
  let main_v13 : IVec S512 32 := broadcastInDim S512 ![] bcast_S_S512 main_c_4
  let main_v14 : IVec S512 1 := cmpi .slt main_arg2 main_v13
  let main_c_5 : IVec S_ 1 := constantI S_ 1 1#1
  let main_v15 : IVec S_ 1 := (fun x v => Host.reduce IntOp.andi x v reducesTo_S512_S_d0 h_S_) main_v14 main_c_5
  fn_part1 (F := F) main_v12 main_v15
-- ==== Kernel.lean ====
abbrev S512x512 : Shape := ⟨2, ![512, 512]⟩
abbrev S100000x512 : Shape := ⟨2, ![100000, 512]⟩
abbrev S512 : Shape := ⟨1, ![512]⟩
abbrev S512x1 : Shape := ⟨2, ![512, 1]⟩
abbrev S1000x512 : Shape := ⟨2, ![1000, 512]⟩
abbrev S1000 : Shape := ⟨1, ![1000]⟩
abbrev S1000x1 : Shape := ⟨2, ![1000, 1]⟩
abbrev S512x1000 : Shape := ⟨2, ![512, 1000]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S512x1, .i32⟩
  | .hbm, ⟨4, _⟩ => ⟨S512x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x512, .f32⟩
  | .local _ .vmem, ⟨1, _⟩ => ⟨S1000x512, .f32⟩
  | .local _ .vmem, ⟨2, _⟩ => ⟨S1000x512, .f32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v89 : BitVec 1 := Scalar.cmpi .eq arg0 c99_i32
  let v90 : BitVec 32 := Scalar.extui v89
  let c0_i32_39 : BitVec 32 := 0#32
  let v91 : BitVec 1 := Scalar.cmpi .ne v90 c0_i32_39
  v91

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  inb_S1000x512_S1000x512_0_0 : ∀ a, (![0, 0] : Fin 2 → Nat) a + S1000x512.size a ≤ S1000x512.size a
  h_S1000x512 : 0 < S1000x512.numel
  reduces_S512x512_S512 : S512x512.Reduces [1] S512
  broadcasts_S512x1_S512x512 : S512x1.Broadcasts S512x512
  reduces_S1000x512_S1000 : S1000x512.Reduces [1] S1000
  shapeCasts_S1000_S1000x1 : S1000.ShapeCasts S1000x1
  broadcasts_S1000x1_S1000x512 : S1000x1.Broadcasts S1000x512
  bitsLt_bf16_f32 : FTy.bits .bf16 < FTy.bits .f32
  iota_S512x1000_d1_w32 : S512x1000.Iotas .tc 32 [1]
  broadcasts_S512x1_S512x1000 : S512x1.Broadcasts S512x1000
  reduces_S512x1000_S512 : S512x1000.Reduces [1] S512
  reducesTo_S512x1_S_d0_1 : S512x1.ReducesTo [0, 1] S_
  h_S_ : 0 < S_.numel
  dot_S512x512_S1000x512_S512x1000_1_1_0_0_n_n_wf : DotDims.WF S512x512 S1000x512 S512x1000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)

variable [Facts₀]

def dot_S512x512_S1000x512_S512x1000_1_1_0_0_n_n : DotDims S512x512 S1000x512 S512x1000 where
  lhsContracting := [1]
  rhsContracting := [1]
  lhsNonContracting := [0]
  rhsNonContracting := [0]
  lhsBatch := []
  rhsBatch := []
  wf := dot_S512x512_S1000x512_S512x1000_1_1_0_0_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S512x2 : Shape := ⟨2, ![512, 2]⟩

abbrev nBuf : Space → Nat
  | .hbm => 138
  | .vmem => 0
  | .smem => 0
  | _ => 0

abbrev hbmTy0_0 (i : Nat) : BufTy := match i % 128 with
  | 0 => ⟨S512x512, .f32⟩
  | 1 => ⟨S100000x512, .f32⟩
  | 2 => ⟨S512, .i32⟩
  | 3 => ⟨S512x512, .f32⟩
  | 4 => ⟨S_, .f32⟩
  | 5 => ⟨S512, .f32⟩
  | 6 => ⟨S512x1, .f32⟩
  | 7 => ⟨S512x1, .f32⟩
  | 8 => ⟨S_, .f32⟩
  | 9 => ⟨S512x1, .f32⟩
  | 10 => ⟨S512x1, .f32⟩
  | 11 => ⟨S512x512, .f32⟩
  | 12 => ⟨S512x512, .f32⟩
  | 13 => ⟨S100000x512, .f32⟩
  | 14 => ⟨S_, .f32⟩
  | 15 => ⟨S100000, .f32⟩
  | 16 => ⟨S100000x1, .f32⟩
  | 17 => ⟨S100000x1, .f32⟩
  | 18 => ⟨S_, .f32⟩
  | 19 => ⟨S100000x1, .f32⟩
  | 20 => ⟨S100000x1, .f32⟩
  | 21 => ⟨S100000x512, .f32⟩
  | 22 => ⟨S100000x512, .f32⟩
  | 23 => ⟨S512x100000, .f32⟩
  | 24 => ⟨S512x100000, .f32⟩
  | 25 => ⟨S512x100000, .f32⟩
  | 26 => ⟨S_, .f32⟩
  | 27 => ⟨S512x100000, .f32⟩
  | 28 => ⟨S512x100000, .f32⟩
  | 29 => ⟨S_, .f32⟩
  | 30 => ⟨S_, .f32⟩
  | 31 => ⟨S_, .f32⟩
  | 32 => ⟨S512x100000, .f32⟩
  | 33 => ⟨S512x100000, .f32⟩
  | 34 => ⟨S_, .f32⟩
  | 35 => ⟨S512x100000, .f32⟩
  | 36 => ⟨S512x100000, .f32⟩
  | 37 => ⟨S512x100000, .f32⟩
  | 38 => ⟨S_, .f32⟩
  | 39 => ⟨S512x100000, .f32⟩
  | 40 => ⟨S512x100000, .f32⟩
  | 41 => ⟨S_, .f32⟩
  | 42 => ⟨S512x100000, .f32⟩
  | 43 => ⟨S512x100000, .f32⟩
  | 44 => ⟨S512x100000, .f32⟩
  | 45 => ⟨S_, .f32⟩
  | 46 => ⟨S512x100000, .f32⟩
  | 47 => ⟨S512x100000, .i1⟩
  | 48 => ⟨S_, .f32⟩
  | 49 => ⟨S512x100000, .f32⟩
  | 50 => ⟨S512x100000, .f32⟩
  | 51 => ⟨S512x100000, .f32⟩
  | 52 => ⟨S512, .i32⟩
  | 53 => ⟨S_, .i32⟩
  | 54 => ⟨S512, .i32⟩
  | 55 => ⟨S512, .i1⟩
  | 56 => ⟨S_, .i32⟩
  | 57 => ⟨S512, .i32⟩
  | 58 => ⟨S512, .i32⟩
  | 59 => ⟨S512, .i32⟩
  | 60 => ⟨S_, .i32⟩
  | 61 => ⟨S512, .i32⟩
  | 62 => ⟨S512, .i1⟩
  | 63 => ⟨S_, .i32⟩
  | 64 => ⟨S512, .i32⟩
  | 65 => ⟨S512, .i32⟩
  | 66 => ⟨S512, .i32⟩
  | 67 => ⟨S512x1, .i32⟩
  | 68 => ⟨S512x1, .i32⟩
  | 69 => ⟨S512x2, .i32⟩
  | 70 => ⟨S512, .f32⟩
  | 71 => ⟨S_, .i32⟩
  | 72 => ⟨S512, .i32⟩
  | 73 => ⟨S512, .i1⟩
  | 74 => ⟨S_, .i32⟩
  | 75 => ⟨S512, .i32⟩
  | 76 => ⟨S512, .i32⟩
  | 77 => ⟨S512, .i32⟩
  | 78 => ⟨S_, .i32⟩
  | 79 => ⟨S512, .i32⟩
  | 80 => ⟨S512, .i1⟩
  | 81 => ⟨S_, .i32⟩
  | 82 => ⟨S512, .i32⟩
  | 83 => ⟨S512, .i32⟩
  | 84 => ⟨S512, .i32⟩
  | 85 => ⟨S512x1, .i32⟩
  | 86 => ⟨S512x1, .i32⟩
  | 87 => ⟨S512x2, .i32⟩
  | 88 => ⟨S512x100000, .f32⟩
  | 89 => ⟨S_, .f32⟩
  | 90 => ⟨S512x100000, .f32⟩
  | 91 => ⟨S512x100000, .f32⟩
  | 92 => ⟨S_, .f32⟩
  | 93 => ⟨S512, .f32⟩
  | 94 => ⟨S_, .f32⟩
  | 95 => ⟨S512, .f32⟩
  | 96 => ⟨S512, .f32⟩
  | 97 => ⟨S512x1, .f32⟩
  | 98 => ⟨S512x100000, .f32⟩
  | 99 => ⟨S512x100000, .f32⟩
  | 100 => ⟨S512x100000, .f32⟩
  | 101 => ⟨S_, .f32⟩
  | 102 => ⟨S512, .f32⟩
  | 103 => ⟨S512x1, .f32⟩
  | 104 => ⟨S512x1, .f32⟩
  | 105 => ⟨S512x100000, .f32⟩
  | 106 => ⟨S512x100000, .f32⟩
  | 107 => ⟨S_, .i32⟩
  | 108 => ⟨S512, .i32⟩
  | 109 => ⟨S512, .i1⟩
  | 110 => ⟨S_, .i32⟩
  | 111 => ⟨S512, .i32⟩
  | 112 => ⟨S512, .i32⟩
  | 113 => ⟨S512, .i32⟩
  | 114 => ⟨S_, .i32⟩
  | 115 => ⟨S512, .i32⟩
  | 116 => ⟨S512, .i1⟩
  | 117 => ⟨S_, .i32⟩
  | 118 => ⟨S512, .i32⟩
  | 119 => ⟨S512, .i32⟩
  | 120 => ⟨S512, .i32⟩
  | 121 => ⟨S512x1, .i32⟩
  | 122 => ⟨S512x1, .i32⟩
  | 123 => ⟨S512x2, .i32⟩
  | 124 => ⟨S512, .f32⟩
  | 125 => ⟨S_, .f32⟩
  | 126 => ⟨S512, .f32⟩
  | 127 => ⟨S512, .f32⟩
  | _ => ⟨S512x512, .f32⟩

abbrev hbmTy0_1 (i : Nat) : BufTy := match i % 128 with
  | 0 => ⟨S_, .f32⟩
  | 1 => ⟨S512, .f32⟩
  | 2 => ⟨S_, .f32⟩
  | 3 => ⟨S512, .f32⟩
  | 4 => ⟨S512, .f32⟩
  | 5 => ⟨S512, .f32⟩
  | 6 => ⟨S_, .f32⟩
  | 7 => ⟨S_, .f32⟩
  | 8 => ⟨S_, .f32⟩
  | 9 => ⟨S_, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_13 : Ref sig .tc := ⟨.hbm, 71, rfl⟩
abbrev main_v48 : Ref sig .tc := ⟨.hbm, 72, rfl⟩
abbrev main_v49 : Ref sig .tc := ⟨.hbm, 73, rfl⟩
abbrev main_c_14 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_15 : Ref sig .tc := ⟨.hbm, 78, rfl⟩
abbrev main_v53 : Ref sig .tc := ⟨.hbm, 79, rfl⟩
abbrev main_v54 : Ref sig .tc := ⟨.hbm, 80, rfl⟩
abbrev main_c_16 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_17 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v64 : Ref sig .tc := ⟨.hbm, 106, rfl⟩
abbrev main_c_18 : Ref sig .tc := ⟨.hbm, 107, rfl⟩
abbrev main_v65 : Ref sig .tc := ⟨.hbm, 108, rfl⟩
abbrev main_v66 : Ref sig .tc := ⟨.hbm, 109, rfl⟩
abbrev main_c_19 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_20 : Ref sig .tc := ⟨.hbm, 114, rfl⟩
abbrev main_v70 : Ref sig .tc := ⟨.hbm, 115, rfl⟩
abbrev main_v71 : Ref sig .tc := ⟨.hbm, 116, rfl⟩
abbrev main_c_21 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_22 : Ref sig .tc := ⟨.hbm, 125, rfl⟩
abbrev main_v79 : Ref sig .tc := ⟨.hbm, 126, rfl⟩
abbrev main_v80 : Ref sig .tc := ⟨.hbm, 127, rfl⟩
abbrev main_cst_23 : Ref sig .tc := ⟨.hbm, 128, rfl⟩
abbrev main_v81 : Ref sig .tc := ⟨.hbm, 129, rfl⟩
abbrev main_cst_24 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_25 : Ref sig .tc := ⟨.hbm, 134, rfl⟩
abbrev main_v85 : Ref sig .tc := ⟨.hbm, 135, rfl⟩
abbrev main_cst_26 : Ref sig .tc := ⟨.hbm, 136, rfl⟩
abbrev main_v86 : Ref sig .tc := ⟨.hbm, 137, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S512x100000 : S_.BroadcastsInDim S512x100000 (![] : Fin 0 → Fin S512x100000.rank)
  bcast_S_S512 : S_.BroadcastsInDim S512 (![] : Fin 0 → Fin S512.rank)
  concatenates_S512x1_S512x1_S512x2_d1 : Shape.Concatenates [S512x1, S512x1] S512x2 1
  reducesTo_S512x100000_S512_d1 : S512x100000.ReducesTo [1] S512
  bcast_S512x1_S512x100000_0_1 : S512x1.BroadcastsInDim S512x100000 (![0, 1] : Fin 2 → Fin S512x100000.rank)
  reducesTo_S512_S_d0 : S512.ReducesTo [0] S_
  dot_S512x512_S512x100000_S512x100000_1_0_0_1_n_n_wf : DotDims.WF S512x512 S512x100000 S512x100000 [1] [0] [0] [1] [] []
  gather_S512x100000_S512x2_S512_n_01_n_n_01_1_11_wf : GatherDims.WF S512x100000 S512x2 S512 [] [0, 1] [] [0, 1] [] 1 ![1, 1]
  scatter_S512x100000_S512x2_S512_n_01_01_1_wf : ScatterDims.WF S512x100000 S512x2 S512 [] [0, 1] [0, 1] 1

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf
def gather_S512x100000_S512x2_S512_n_01_n_n_01_1_11 : GatherDims S512x100000 S512x2 S512 where
  offsetDims := []
  collapsedSliceDims := [0, 1]
  operandBatchingDims := []
  startIndicesBatchingDims := []
  startIndexMap := [0, 1]
  indexVectorDim := 1
  sliceSizes := ![1, 1]
  wf := gather_S512x100000_S512x2_S512_n_01_n_n_01_1_11_wf
def scatter_S512x100000_S512x2_S512_n_01_01_1 : ScatterDims S512x100000 S512x2 S512 where
  updateWindowDims := []
  insertedWindowDims := [0, 1]
  scatterDimsToOperandDims := [0, 1]
  indexVectorDim := 1
  wf := scatter_S512x100000_S512x2_S512_n_01_01_1_wf

class Facts : Prop extends Facts₀ where

variable [Facts]
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.KPieces.lean ====
/-
  What each control case of the kernel's body leaves in the four carried columns and in the output block, as values.

  The body is run once per control case (first point, middle points, last point); each run ends with the list of
  covering stores it made into each column.  Read back, a column holds the value of its last covering store: the new
  running maximum, the new rescaled sum of exponentials, the new sum of logits and the new label logit, each a function
  of the point's three input blocks and of what the column held before — the columns of the point before at a middle or
  last point, the freshly stored −∞ and zeros at the first point.  The last point also stores the loss column, computed
  from the four new columns.
-/
import proofs.«403486_j49091476193958_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The new running maximum: the old one against the block's row maxima. -/
abbrev newM (a0 : BitVec 32) (x0 : Vec F S512x512 .f32) (x1 : Vec F S1000x512 .f32) (x2 : Vec F S512x1 .i32) (s0 : Vec F S512x1 .f32) : FVec F S512x1 .f32 :=
  k0_pay16 a0 (k0_pay8 x0 x1) (k0_pay9 x0 x1) (k0_pay10 x0 x1) k0_pay11 x2 s0

/-- The new sum of exponentials: the old one rescaled to the new maximum, plus the block's. -/
abbrev newL (a0 : BitVec 32) (x0 : Vec F S512x512 .f32) (x1 : Vec F S1000x512 .f32) (x2 : Vec F S512x1 .i32) (s0 s1 : Vec F S512x1 .f32) : FVec F S512x1 .f32 :=
  k0_pay15 a0 (k0_pay8 x0 x1) (k0_pay9 x0 x1) (k0_pay10 x0 x1) k0_pay11 x2 s0 s1

/-- The new sum of logits. -/
abbrev newSO (a0 : BitVec 32) (x0 : Vec F S512x512 .f32) (x1 : Vec F S1000x512 .f32) (x2 : Vec F S512x1 .i32) (s2 : Vec F S512x1 .f32) : FVec F S512x1 .f32 :=
  k0_pay1 (k0_pay17 a0 (k0_pay8 x0 x1) (k0_pay9 x0 x1) (k0_pay10 x0 x1) k0_pay11 x2 s2)

/-- The new label logit. -/
abbrev newTG (a0 : BitVec 32) (x0 : Vec F S512x512 .f32) (x1 : Vec F S1000x512 .f32) (x2 : Vec F S512x1 .i32) (s3 : Vec F S512x1 .f32) : FVec F S512x1 .f32 :=
  k0_pay2 (k0_pay12 a0 x2) (k0_pay13 a0 (k0_pay8 x0 x1) (k0_pay9 x0 x1) (k0_pay10 x0 x1) k0_pay11 x2) s3

/-- A middle point: the running maximum the body leaves, over the point before's columns. -/
theorem sout_B_0 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x512 .f32) (x1 : Vec F S1000x512 .f32) (x2 : Vec F S512x1 .i32) (xs0 xs1 xs2 xs3 : Vec F S512x1 .f32) :
    sout0_B_0 c i arg1 harg1 arg2 harg2 arg3 harg3 arg4 harg4 arg5 harg5 arg6 harg6 arg7 harg7 arg8 harg8 hc0 hc1 x0 x1 x2 xs0 xs1 xs2 xs3 = newM (BitVec.ofNat 32 (i 0).val) x0 x1 x2 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 xs0 xs1 xs2 xs3)]
  unfold kernelRun0_B
  dsimp only
  sl_unfold_words
  rw [View.canon_unit_zero hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- A middle point: the rescaled sum of exponentials the body leaves, over the point before's columns. -/
theorem sout_B_1 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x512 .f32) (x1 : Vec F S1000x512 .f32) (x2 : Vec F S512x1 .i32) (xs0 xs1 xs2 xs3 : Vec F S512x1 .f32) :
    sout0_B_1 c i arg1 harg1 arg2 harg2 arg3 harg3 arg4 harg4 arg5 harg5 arg6 harg6 arg7 harg7 arg8 harg8 hc0 hc1 x0 x1 x2 xs0 xs1 xs2 xs3 = newL (BitVec.ofNat 32 (i 0).val) x0 x1 x2 xs0 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 xs0 xs1 xs2 xs3)]
  unfold kernelRun0_B
  dsimp only
  sl_unfold_words
  rw [View.canon_unit_zero hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- A middle point: the sum of logits the body leaves, over the point before's columns. -/
theorem sout_B_2 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x512 .f32) (x1 : Vec F S1000x512 .f32) (x2 : Vec F S512x1 .i32) (xs0 xs1 xs2 xs3 : Vec F S512x1 .f32) :
    sout0_B_2 c i arg1 harg1 arg2 harg2 arg3 harg3 arg4 harg4 arg5 harg5 arg6 harg6 arg7 harg7 arg8 harg8 hc0 hc1 x0 x1 x2 xs0 xs1 xs2 xs3 = newSO (BitVec.ofNat 32 (i 0).val) x0 x1 x2 xs2 := by
  unfold sout0_B_2
  rw [View.read_writes_eq_canon _ _ _ (scover0_B_2 c i arg1 harg1 arg2 harg2 arg3 harg3 arg4 harg4 arg5 harg5 arg6 harg6 arg7 harg7 arg8 harg8 hc0 hc1 x0 x1 x2 xs0 xs1 xs2 xs3)]
  unfold kernelRun0_B
  dsimp only
  sl_unfold_words
  rw [View.canon_unit_zero hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- A middle point: the label logit the body leaves, over the point before's columns. -/
theorem sout_B_3 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x512 .f32) (x1 : Vec F S1000x512 .f32) (x2 : Vec F S512x1 .i32) (xs0 xs1 xs2 xs3 : Vec F S512x1 .f32) :
    sout0_B_3 c i arg1 harg1 arg2 harg2 arg3 harg3 arg4 harg4 arg5 harg5 arg6 harg6 arg7 harg7 arg8 harg8 hc0 hc1 x0 x1 x2 xs0 xs1 xs2 xs3 = newTG (BitVec.ofNat 32 (i 0).val) x0 x1 x2 xs3 := by
  unfold sout0_B_3
  rw [View.read_writes_eq_canon _ _ _ (scover0_B_3 c i arg1 harg1 arg2 harg2 arg3 harg3 arg4 harg4 arg5 harg5 arg6 harg6 arg7 harg7 arg8 harg8 hc0 hc1 x0 x1 x2 xs0 xs1 xs2 xs3)]
  unfold kernelRun0_B
  dsimp only
  sl_unfold_words
  rw [View.canon_unit_zero hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- The last point: the running maximum the body leaves, over the point before's columns. -/
theorem sout_C_0 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x512 .f32) (x1 : Vec F S1000x512 .f32) (x2 : Vec F S512x1 .i32) (xs0 xs1 xs2 xs3 : Vec F S512x1 .f32) :
    sout0_C_0 c i arg1 harg1 arg2 harg2 arg3 harg3 arg4 harg4 arg5 harg5 arg6 harg6 arg7 harg7 arg8 harg8 hc0 hc1 x0 x1 x2 xs0 xs1 xs2 xs3 = newM (BitVec.ofNat 32 (i 0).val) x0 x1 x2 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 xs0 xs1 xs2 xs3)]
  unfold kernelRun0_C
  dsimp only
  sl_unfold_words
  rw [View.canon_unit_zero hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- The last point: the rescaled sum of exponentials the body leaves, over the point before's columns. -/
theorem sout_C_1 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x512 .f32) (x1 : Vec F S1000x512 .f32) (x2 : Vec F S512x1 .i32) (xs0 xs1 xs2 xs3 : Vec F S512x1 .f32) :
    sout0_C_1 c i arg1 harg1 arg2 harg2 arg3 harg3 arg4 harg4 arg5 harg5 arg6 harg6 arg7 harg7 arg8 harg8 hc0 hc1 x0 x1 x2 xs0 xs1 xs2 xs3 = newL (BitVec.ofNat 32 (i 0).val) x0 x1 x2 xs0 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 xs0 xs1 xs2 xs3)]
  unfold kernelRun0_C
  dsimp only
  sl_unfold_words
  rw [View.canon_unit_zero hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- The last point: the sum of logits the body leaves, over the point before's columns. -/
theorem sout_C_2 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x512 .f32) (x1 : Vec F S1000x512 .f32) (x2 : Vec F S512x1 .i32) (xs0 xs1 xs2 xs3 : Vec F S512x1 .f32) :
    sout0_C_2 c i arg1 harg1 arg2 harg2 arg3 harg3 arg4 harg4 arg5 harg5 arg6 harg6 arg7 harg7 arg8 harg8 hc0 hc1 x0 x1 x2 xs0 xs1 xs2 xs3 = newSO (BitVec.ofNat 32 (i 0).val) x0 x1 x2 xs2 := by
  unfold sout0_C_2
  rw [View.read_writes_eq_canon _ _ _ (scover0_C_2 c i arg1 harg1 arg2 harg2 arg3 harg3 arg4 harg4 arg5 harg5 arg6 harg6 arg7 harg7 arg8 harg8 hc0 hc1 x0 x1 x2 xs0 xs1 xs2 xs3)]
  unfold kernelRun0_C
  dsimp only
  sl_unfold_words
  rw [View.canon_unit_zero hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- The last point: the label logit the body leaves, over the point before's columns. -/
theorem sout_C_3 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x512 .f32) (x1 : Vec F S1000x512 .f32) (x2 : Vec F S512x1 .i32) (xs0 xs1 xs2 xs3 : Vec F S512x1 .f32) :
    sout0_C_3 c i arg1 harg1 arg2 harg2 arg3 harg3 arg4 harg4 arg5 harg5 arg6 harg6 arg7 harg7 arg8 harg8 hc0 hc1 x0 x1 x2 xs0 xs1 xs2 xs3 = newTG (BitVec.ofNat 32 (i 0).val) x0 x1 x2 xs3 := by
  unfold sout0_C_3
  rw [View.read_writes_eq_canon _ _ _ (scover0_C_3 c i arg1 harg1 arg2 harg2 arg3 harg3 arg4 harg4 arg5 harg5 arg6 harg6 arg7 harg7 arg8 harg8 hc0 hc1 x0 x1 x2 xs0 xs1 xs2 xs3)]
  unfold kernelRun0_C
  dsimp only
  sl_unfold_words
  rw [View.canon_unit_zero hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- First point: the running maximum the body leaves, over the freshly stored start value. -/
theorem sout_A_0 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x512 .f32) (x1 : Vec F S1000x512 .f32) (x2 : Vec F S512x1 .i32) :
    sout0_A_0 c i arg1 harg1 arg2 harg2 arg3 harg3 arg4 harg4 arg5 harg5 arg6 harg6 arg7 harg7 arg8 harg8 hc0 hc1 x0 x1 x2 = newM (BitVec.ofNat 32 (i 0).val) x0 x1 x2 k0_pay4 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- First point: the rescaled sum of exponentials the body leaves, over the freshly stored start value. -/
theorem sout_A_1 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x512 .f32) (x1 : Vec F S1000x512 .f32) (x2 : Vec F S512x1 .i32) :
    sout0_A_1 c i arg1 harg1 arg2 harg2 arg3 harg3 arg4 harg4 arg5 harg5 arg6 harg6 arg7 harg7 arg8 harg8 hc0 hc1 x0 x1 x2 = newL (BitVec.ofNat 32 (i 0).val) x0 x1 x2 k0_pay4 k0_pay5 := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- First point: the sum of logits the body leaves, over the freshly stored start value. -/
theorem sout_A_2 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x512 .f32) (x1 : Vec F S1000x512 .f32) (x2 : Vec F S512x1 .i32) :
    sout0_A_2 c i arg1 harg1 arg2 harg2 arg3 harg3 arg4 harg4 arg5 harg5 arg6 harg6 arg7 harg7 arg8 harg8 hc0 hc1 x0 x1 x2 = newSO (BitVec.ofNat 32 (i 0).val) x0 x1 x2 k0_pay6 := by
  unfold sout0_A_2
  rw [View.read_writes_eq_canon _ _ _ (scover0_A_2 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- First point: the label logit the body leaves, over the freshly stored start value. -/
theorem sout_A_3 (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x512 .f32) (x1 : Vec F S1000x512 .f32) (x2 : Vec F S512x1 .i32) :
    sout0_A_3 c i arg1 harg1 arg2 harg2 arg3 harg3 arg4 harg4 arg5 harg5 arg6 harg6 arg7 harg7 arg8 harg8 hc0 hc1 x0 x1 x2 = newTG (BitVec.ofNat 32 (i 0).val) x0 x1 x2 k0_pay7 := by
  unfold sout0_A_3
  rw [View.read_writes_eq_canon _ _ _ (scover0_A_3 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

/-- The last point: the loss column, from the four new columns. -/
theorem out_C (c : Dev nD) (i : grid0.Coords) (arg1 : Memref sig .tc .vmem S512x512 .f32) (harg1 : arg1.IsWhole) (arg2 : Memref sig .tc .vmem S1000x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x512 .f32) (x1 : Vec F S1000x512 .f32) (x2 : Vec F S512x1 .i32) (xs0 xs1 xs2 xs3 : Vec F S512x1 .f32) :
    out0_C_3 c i arg1 harg1 arg2 harg2 arg3 harg3 arg4 harg4 arg5 harg5 arg6 harg6 arg7 harg7 arg8 harg8 hc0 hc1 x0 x1 x2 xs0 xs1 xs2 xs3
      = k0_pay3 (newL (BitVec.ofNat 32 (i 0).val) x0 x1 x2 xs0 xs1) (newTG (BitVec.ofNat 32 (i 0).val) x0 x1 x2 xs3)
          (newM (BitVec.ofNat 32 (i 0).val) x0 x1 x2 xs0) (newSO (BitVec.ofNat 32 (i 0).val) x0 x1 x2 xs2)
          (newM (BitVec.ofNat 32 (i 0).val) x0 x1 x2 xs0) := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 x2 xs0 xs1 xs2 xs3)]
  unfold kernelRun0_C
  dsimp only
  sl_unfold_words
  rw [View.canon_unit_zero hz]
  simp only [View.readAt_eq_ld, harg1.read_unread, harg2.read_unread, harg3.read_unread, harg5.read_unread, harg6.read_unread, harg7.read_unread, harg8.read_unread, View.ld_unit_zero (S := S512x512) hz, View.ld_unit_zero (S := S1000x512) hz, View.ld_unit_zero (S := S512x1) hz, View.readCov_unit_zero (S := S512x1) _ hz]

end Cert.KernelIdeal.Pieces

end
-- ==== Proof.Spec.lean ====
/-
  The label-smoothed additive-angular-margin (ArcFace) loss, written once, independently of either program.

  Inputs: features x : [512, 512], class weights w : [100000, 512], one label word per row.  Every row of x and of w is
  divided by max(‖row‖, ε); the cosine of row b and class c is the inner product of the two normalised rows; at the
  row's own label the cosine v is replaced by the margin value (v·cos m − √(clip(1 − v², 0, 1))·sin m where v exceeds
  cos(π − m), and v − m·sin m elsewhere); everything is scaled by s = 30.  That is the logit row z.

  The loss of a row is  −(1 − e)·lp(label) − (e / C)·Σ_c lp(c)  with lp = log-softmax(z).  It is stated here twice:
    * `refRowLoss`: with the whole row's maximum M and  lp(c) = (z c − M) − log Σ_c exp(z c − M);
    * `onlineRowLoss`: the one-pass form over 100 blocks of 1000 classes, carrying the running maximum m, the running
      sum l of exp(z − m) rescaled by exp(m_old − m_new) at every block, the running sum of the logits and the running
      label logit, and closing with  lp(label) = tg − m − log l  and  Σ_c lp(c) = so − C·m − C·log l.
  The mean over the 512 rows is the result.
-/
import Idealize.ShloMosaic.PureOps.Ideal
import Idealize.ShloMosaic.PureOps.Ideal.Laws
import Idealize.ShloMosaic.Lib.ValueIdx

noncomputable section

open scoped BigOperators

namespace ArcLoss

open Idealize.ShloMosaic

/-- The extended real an f32 word denotes. -/
abbrev lit (b : BitVec 32) : EReal := Ideal.ofBits .f32 b

/-- ε of the normalisation (1e-12 as an f32). -/
abbrev cEps : EReal := lit 0x2B8CBCCC#32
abbrev cOne : EReal := lit 0x3F800000#32
/-- cos m, sin m, cos(π − m), m·sin m for m = 0.5, as the f32 words both programs carry. -/
abbrev cCos : EReal := lit 0x3F60A940#32
abbrev cSin : EReal := lit 0x3EF57744#32
abbrev cTh : EReal := lit 0xBF60A940#32
abbrev cMm : EReal := lit 0x3E757744#32
/-- The scale s = 30. -/
abbrev cS : EReal := lit 0x41F00000#32
/-- The number of classes C = 100000, −(1 − e) = −0.9, e / C = 1e-6, and the batch size 512. -/
abbrev cC : EReal := lit 0x47C35000#32
abbrev c9 : EReal := lit 0xBF666666#32
abbrev c6 : EReal := lit 0x358637BD#32
abbrev c512 : EReal := lit 0x44000000#32

/-- max(‖v‖, ε) of a row. -/
def nrm {K : ℕ} (v : Fin K → EReal) : EReal := max (Ideal.sqrt (∑ k : Fin K, v k * v k)) cEps

/-- The cosine of feature row `b` and class row `c`. -/
def cosAt (x : Fin 512 → Fin 512 → EReal) (w : Fin 100000 → Fin 512 → EReal) (b : Fin 512) (c : Fin 100000) : EReal :=
  ∑ k : Fin 512, Ideal.div (x b k) (nrm (x b)) * Ideal.div (w c k) (nrm (w c))

/-- The margin value of a cosine `v`. -/
def margin (v : EReal) : EReal :=
  Scalar.select (Ideal.cmp .ogt v cTh)
    (v * cCos - Ideal.sqrt (min cOne (max 0 (cOne - v * v))) * cSin)
    (v - cMm)

/-- The logit of row `b` at class `c`: the margin value at the row's label, the cosine elsewhere, times s. -/
def logit (x : Fin 512 → Fin 512 → EReal) (w : Fin 100000 → Fin 512 → EReal) (lab : Fin 512 → BitVec 32)
    (b : Fin 512) (c : Fin 100000) : EReal :=
  (if (lab b).toNat = c.val then margin (cosAt x w b c) else cosAt x w b c) * cS

/-! ## The whole-row form -/

/-- The row's maximum, from −∞. -/
def rowMax (z : Fin 100000 → EReal) : EReal := (Finset.univ : Finset (Fin 100000)).fold max ⊥ z

/-- A row's loss with the log-softmax taken over the whole row at once. -/
def refRowLoss (z : Fin 100000 → EReal) (ℓ : Fin 100000) : EReal :=
  c9 * ((z ℓ - rowMax z) - Ideal.log (∑ c : Fin 100000, Ideal.exp (z c - rowMax z)))
    - c6 * ∑ c : Fin 100000, ((z c - rowMax z) - Ideal.log (∑ c' : Fin 100000, Ideal.exp (z c' - rowMax z)))

/-! ## The one-pass form -/

/-- Class `j` of block `t`. -/
def blk (t : Fin 100) (j : Fin 1000) : Fin 100000 := ⟨t.val * 1000 + j.val, by have := t.isLt; have := j.isLt; omega⟩

/-- What the pass carries: running maximum, rescaled sum of exponentials, sum of logits, label logit. -/
structure Acc where
  m : EReal
  l : EReal
  so : EReal
  tg : EReal

/-- Before the first block. -/
def Acc.init : Acc := ⟨⊥, 0, 0, 0⟩

/-- The maximum of block `t`, from −∞. -/
def bmax (z : Fin 100000 → EReal) (t : Fin 100) : EReal :=
  (Finset.univ : Finset (Fin 1000)).fold max ⊥ (fun j => z (blk t j))

/-- One block of the pass. -/
def step (z : Fin 100000 → EReal) (ℓ : BitVec 32) (t : Fin 100) (a : Acc) : Acc where
  m := max a.m (bmax z t)
  l := a.l * Ideal.exp (a.m - max a.m (bmax z t)) + ∑ j : Fin 1000, Ideal.exp (z (blk t j) - max a.m (bmax z t))
  so := a.so + ∑ j : Fin 1000, z (blk t j)
  tg := a.tg + ∑ j : Fin 1000, (if ℓ.toNat = (blk t j).val then z (blk t j) else 0)

/-- The pass after blocks `0 … n`. -/
def accAt (z : Fin 100000 → EReal) (ℓ : BitVec 32) : (n : ℕ) → n < 100 → Acc
  | 0, h => step z ℓ ⟨0, h⟩ Acc.init
  | n + 1, h => step z ℓ ⟨n + 1, h⟩ (accAt z ℓ n (Nat.lt_of_succ_lt h))

/-- The closing formula of the pass. -/
def finish (a : Acc) : EReal :=
  c9 * ((a.tg - a.m) - Ideal.log a.l) - c6 * ((a.so - cC * a.m) - cC * Ideal.log a.l)

/-- A row's loss computed in one pass over the 100 blocks. -/
def onlineRowLoss (z : Fin 100000 → EReal) (ℓ : BitVec 32) : EReal := finish (accAt z ℓ 99 (by decide))

/-- The batch mean of row losses `f`. -/
def batchMean (f : Fin 512 → EReal) : EReal := Ideal.div (∑ b : Fin 512, f b) c512

/-! ## The two words that are not ordinary numbers -/

/-- The word of −∞ denotes the bottom of the extended reals. -/
theorem lit_negInf : lit 0xFF800000#32 = ⊥ := by simp [lit, Ideal.ofBits, Ideal.ieee]

/-- The word of +0 denotes zero. -/
theorem lit_zero : lit 0x00000000#32 = 0 := Ideal.ofBits_zero_f32

end ArcLoss

end
-- ==== Proof.LibLaneMax.lean ====
/-
  A maximum over the last axis, read at a row (jnp.max(x, axis=1) of an [a, b] array).

  On the extended reals a lane maximum of an [a, b] array along its second axis, taken from the neutral accumulator
  (minus infinity), is at row p the fold of max over the row's b entries, from the value the accumulator's word
  denotes: the order in which the lanes are combined is gone. It is the maximum's sibling of the lane sum read as a sum
  over the row.
-/
import Idealize.ShloMosaic.PureOps.Ideal.Laws
import Idealize.ShloMosaic.Lib.ValueIdx

noncomputable section

namespace Idealize.ShloMosaic.LaneMax

open Idealize.ShloMosaic Idealize.ShloMosaic.ValueIdx

/-- On the extended reals a lane maximum of an `[a, b]` array along its second axis, from the neutral accumulator,
    reads at row `p` as the fold of `max` over `d` of the array at `(p, d)`. -/
theorem laneMax_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun d => v (ix2 p d)) := by
  rw [Ideal.multiReduction_maximumf_single]
  refine Finset.fold_congr fun d _ => congrArg v (funext fun c => Fin.ext ?_)
  match c with
  | ⟨0, _⟩ => rfl
  | ⟨1, _⟩ => rfl

end Idealize.ShloMosaic.LaneMax

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.KRow.lean ====
/-
  One block of the one-pass loss, as the kernel's body computes it on a row.

  Given the block's scaled logits Z (a [512, 1000] array) and its label test, the body updates four [512, 1] columns:
  the running maximum, the rescaled running sum of exponentials, the running sum of logits and the running label
  logit.  Read at row b these are the four components of one `step` of the pass; the closing arithmetic of the last
  point is `finish`.
-/
import proofs.«403486_j49091476193958_1_alg».proof.Proof.Gen.KernelIdeal.Skeleton
import proofs.«403486_j49091476193958_1_alg».proof.Proof.Spec
import proofs.«403486_j49091476193958_1_alg».proof.Proof.LibLaneMax
import proofs.«403486_j49091476193958_1_alg».proof.Proof.LibKeepdimsColumn
import Idealize.ShloMosaic.Lib.ValueIdx
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx ArcLoss

variable [Cert.KernelIdeal.Facts]

open Idealize.ShloMosaic.KeepdimsColumn Idealize.ShloMosaic.LaneMax

section block

variable (t : Fin 100) (a0 : BitVec 32) (v23 v36 : FVec Ideal S512x1000 .f32) (v38 : IVec S512x1000 1)
  (v39 : FVec Ideal S512x1000 .f32) (v46 : Vec Ideal S512x1 .i32)
  (z : Fin 100000 → EReal) (ℓ : BitVec 32) (a : Acc) (b : Fin 512)

/-- The new running maximum on row `b`: the carried maximum against the maximum of the block's logits, the latter
    folded from the −∞ word, which denotes `⊥`. -/
theorem pay14_apply (s0 : Vec Ideal S512x1 .f32)
    (hZ : ∀ j : Fin 1000, k0_pay13 (F := Ideal) a0 v23 v36 v38 v39 v46 (ix2 b j) = z (blk t j))
    (h0 : s0 (ix2 b (0 : Fin 1)) = a.m) :
    k0_pay14 (F := Ideal) a0 v23 v36 v38 v39 v46 s0 (ix2 b (0 : Fin 1)) = max a.m (bmax z t) := by
  unfold k0_pay14
  rw [maximumf_apply, h0, shapeCast_a_a1_apply]
  refine congrArg (max a.m) ?_
  refine (laneMax_ab_apply (k0_pay13 (F := Ideal) a0 v23 v36 v38 v39 v46) _ _ _ _ b).trans ?_
  unfold bmax
  have hw : Ideal.ofBits .f32 (4286578688#32) = (⊥ : EReal) := lit_negInf
  rw [hw]
  exact Finset.fold_congr fun j _ => hZ j

/-- The rescaled running sum of exponentials on row `b`. -/
theorem pay15_apply (s0 s1 : Vec Ideal S512x1 .f32)
    (hZ : ∀ j : Fin 1000, k0_pay13 (F := Ideal) a0 v23 v36 v38 v39 v46 (ix2 b j) = z (blk t j))
    (h0 : s0 (ix2 b (0 : Fin 1)) = a.m) (h1 : s1 (ix2 b (0 : Fin 1)) = a.l) :
    k0_pay15 (F := Ideal) a0 v23 v36 v38 v39 v46 s0 s1 (ix2 b (0 : Fin 1))
      = a.l * Ideal.exp (a.m - max a.m (bmax z t))
        + ∑ j : Fin 1000, Ideal.exp (z (blk t j) - max a.m (bmax z t)) := by
  have hM := pay14_apply t a0 v23 v36 v38 v39 v46 z a b s0 hZ h0
  unfold k0_pay15
  rw [shapeCast_self, addf_apply, shapeCast_a_a1_apply]
  refine congrArg₂ (· + ·) ?_ ?_
  · show s1 (ix2 b (0 : Fin 1)) * Ideal.exp (s0 (ix2 b (0 : Fin 1))
        - k0_pay14 (F := Ideal) a0 v23 v36 v38 v39 v46 s0 (ix2 b (0 : Fin 1))) = _
    rw [h1, h0, hM]
  · refine (laneSum_ab_apply _ _ _ _ _ b).trans ?_
    refine Finset.sum_congr rfl fun j _ => ?_
    show Ideal.exp (k0_pay13 (F := Ideal) a0 v23 v36 v38 v39 v46 (ix2 b j)
        - broadcastTo S512x1000 (k0_pay14 (F := Ideal) a0 v23 v36 v38 v39 v46 s0) broadcasts_S512x1_S512x1000 (ix2 b j)) = _
    rw [hZ j, broadcastTo_a1_ab_apply, hM]

/-- The running sum of logits on row `b`. -/
theorem pay17_apply (s2 : Vec Ideal S512x1 .f32)
    (hZ : ∀ j : Fin 1000, k0_pay13 (F := Ideal) a0 v23 v36 v38 v39 v46 (ix2 b j) = z (blk t j))
    (h2 : s2 (ix2 b (0 : Fin 1)) = a.so) :
    k0_pay17 (F := Ideal) a0 v23 v36 v38 v39 v46 s2 (ix2 b (0 : Fin 1)) = a.so + ∑ j : Fin 1000, z (blk t j) := by
  unfold k0_pay17
  rw [addf_apply, h2, shapeCast_a_a1_apply]
  refine congrArg (a.so + ·) ?_
  refine (laneSum_ab_apply (k0_pay13 (F := Ideal) a0 v23 v36 v38 v39 v46) _ _ _ _ b).trans ?_
  exact Finset.sum_congr rfl fun j _ => hZ j

/-- The running label logit on row `b`: the block's logits where the label test holds, zero elsewhere, summed. -/
theorem pay2_apply (s3 : Vec Ideal S512x1 .f32)
    (hZ : ∀ j : Fin 1000, k0_pay13 (F := Ideal) a0 v23 v36 v38 v39 v46 (ix2 b j) = z (blk t j))
    (hL : ∀ j : Fin 1000, k0_pay12 (F := Ideal) a0 v46 (ix2 b j) = 1#1 ↔ ℓ.toNat = (blk t j).val)
    (h3 : s3 (ix2 b (0 : Fin 1)) = a.tg) :
    k0_pay2 (F := Ideal) (k0_pay12 a0 v46) (k0_pay13 a0 v23 v36 v38 v39 v46) s3 (ix2 b (0 : Fin 1))
      = a.tg + ∑ j : Fin 1000, (if ℓ.toNat = (blk t j).val then z (blk t j) else 0) := by
  unfold k0_pay2
  rw [shapeCast_self, addf_apply, h3, shapeCast_a_a1_apply]
  refine congrArg (a.tg + ·) ?_
  refine (laneSum_ab_apply _ _ _ _ _ b).trans ?_
  refine Finset.sum_congr rfl fun j _ => ?_
  rw [select_apply, hZ j, broadcast_apply]
  by_cases h : ℓ.toNat = (blk t j).val
  · rw [(hL j).mpr h, select_one, if_pos h]
  · rw [eq_zero_of_ne_one (mt (hL j).mp h), select_zero, if_neg h]
    exact lit_zero

end block

/-- One block on row `b`: from carried columns holding the pass's state `a` at row b, the four stored columns hold
    `step z ℓ t a` at row b — for any row `z` that the block's logits are a stretch of, and a label test that marks
    the entry whose class index is the label. -/
theorem row_step (t : Fin 100) (a0 : BitVec 32) (v23 v36 : FVec Ideal S512x1000 .f32) (v38 : IVec S512x1000 1)
    (v39 : FVec Ideal S512x1000 .f32) (v46 : Vec Ideal S512x1 .i32) (s0 s1 s2 s3 : Vec Ideal S512x1 .f32)
    (z : Fin 100000 → EReal) (ℓ : BitVec 32) (a : Acc) (b : Fin 512)
    (hZ : ∀ j : Fin 1000, k0_pay13 (F := Ideal) a0 v23 v36 v38 v39 v46 (ix2 b j) = z (blk t j))
    (hL : ∀ j : Fin 1000, k0_pay12 (F := Ideal) a0 v46 (ix2 b j) = 1#1 ↔ ℓ.toNat = (blk t j).val)
    (h0 : s0 (ix2 b (0 : Fin 1)) = a.m) (h1 : s1 (ix2 b (0 : Fin 1)) = a.l)
    (h2 : s2 (ix2 b (0 : Fin 1)) = a.so) (h3 : s3 (ix2 b (0 : Fin 1)) = a.tg) :
    k0_pay16 (F := Ideal) a0 v23 v36 v38 v39 v46 s0 (ix2 b (0 : Fin 1)) = (step z ℓ t a).m
    ∧ k0_pay15 (F := Ideal) a0 v23 v36 v38 v39 v46 s0 s1 (ix2 b (0 : Fin 1)) = (step z ℓ t a).l
    ∧ k0_pay1 (F := Ideal) (k0_pay17 a0 v23 v36 v38 v39 v46 s2) (ix2 b (0 : Fin 1)) = (step z ℓ t a).so
    ∧ k0_pay2 (F := Ideal) (k0_pay12 a0 v46) (k0_pay13 a0 v23 v36 v38 v39 v46) s3 (ix2 b (0 : Fin 1)) = (step z ℓ t a).tg := by
  refine ⟨?_, ?_, ?_, ?_⟩
  · unfold k0_pay16
    rw [shapeCast_self]
    exact pay14_apply t a0 v23 v36 v38 v39 v46 z a b s0 hZ h0
  · exact pay15_apply t a0 v23 v36 v38 v39 v46 z a b s0 s1 hZ h0 h1
  · unfold k0_pay1
    rw [shapeCast_self]
    exact pay17_apply t a0 v23 v36 v38 v39 v46 z a b s2 hZ h2
  · exact pay2_apply t a0 v23 v36 v38 v39 v46 z ℓ a b s3 hZ hL h3

/-- The closing arithmetic on row `b`: from columns holding the state `a`, the stored loss column holds `finish a`. -/
theorem row_finish (vl vtg vm vso vm' : Vec Ideal S512x1 .f32) (a : Acc) (b : Fin 512)
    (hl : vl (ix2 b (0 : Fin 1)) = a.l) (htg : vtg (ix2 b (0 : Fin 1)) = a.tg) (hm : vm (ix2 b (0 : Fin 1)) = a.m)
    (hso : vso (ix2 b (0 : Fin 1)) = a.so) (hm' : vm' (ix2 b (0 : Fin 1)) = a.m) :
    k0_pay3 (F := Ideal) vl vtg vm vso vm' (ix2 b (0 : Fin 1)) = finish a := by
  show c9 * ((vtg (ix2 b (0 : Fin 1)) - vm (ix2 b (0 : Fin 1))) - Ideal.log (vl (ix2 b (0 : Fin 1))))
      - c6 * ((vso (ix2 b (0 : Fin 1)) - cC * vm' (ix2 b (0 : Fin 1))) - cC * Ideal.log (vl (ix2 b (0 : Fin 1))))
    = finish a
  rw [hl, htg, hm, hso, hm']
  rfl

/-- The columns the first point stores before anything else: −∞ for the maximum, zero for the three sums. -/
theorem init_apply (i : S512x1.Idx) :
    k0_pay4 (F := Ideal) i = Acc.init.m ∧ k0_pay5 (F := Ideal) i = Acc.init.l
    ∧ k0_pay6 (F := Ideal) i = Acc.init.so ∧ k0_pay7 (F := Ideal) i = Acc.init.tg := by
  refine ⟨?_, ?_, ?_, ?_⟩
  · unfold k0_pay4
    rw [shapeCast_self]
    exact lit_negInf
  · unfold k0_pay5
    rw [shapeCast_self]
    exact lit_zero
  · unfold k0_pay6
    rw [shapeCast_self]
    exact lit_zero
  · unfold k0_pay7
    rw [shapeCast_self]
    exact lit_zero

end Cert.KernelIdeal.RowValue

end
-- ==== Proof.LibTransposedRhsDot.lean ====
/-
  A MATRIX PRODUCT WHOSE RIGHT OPERAND IS STORED TRANSPOSED, read at an index over the extended reals.

  The einsum "de,ne->dn" — `L : [M, K]` times `R : [N, K]`, both contracted on their LAST axis, the result `[M, N]` —
  is what a kernel writes when it multiplies by a matrix it holds row-by-row (a one-hot match matrix built node by
  node, a weight kept `[out, in]`). Its dimension numbers are the library's `DotDims.transposedRhs M K N`
  (`<[1], [1], [0], [0], …>`). At the ideal instance a `tpu.matmul` at these dimension numbers into a zero accumulator,
  read at `(r, c)`, is the plain sum over `k` of `L[r, k] · R[c, k]` (`matmul_zero_apply`): the contraction index is one
  coordinate (`ValueIdx.contrEquiv1`), the left operand's index at it is `(r, k)` and the right operand's `(c, k)`
  (`lhsIdx_eq`, `rhsIdx_eq`). A program's own generated record with these six lists is this record (`rfl`: the
  well-formedness field is a proposition).
-/
import Idealize.ShloMosaic.PureOps.Ideal.Laws
import Idealize.ShloMosaic.Lib.ValueIdx

noncomputable section

open scoped BigOperators

namespace Idealize.ShloMosaic.TransposedRhsDot

open Idealize.ShloMosaic Idealize.ShloMosaic.ValueIdx

variable {M K N : Nat}

/-- On the left operand's row axis the index is the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- On the right operand's row axis the index is the result's COLUMN. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- On the left operand's last axis the index is the contraction position. -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single (cl := 1) rfl j k

/-- On the right operand's last axis too. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single (cr := 1) rfl j k

/-- The contraction positions are the numbers below `K`. -/
abbrev contrEquiv : (DotDims.transposedRhs M K N).contr.Idx ≃ Fin K :=
  contrEquiv1 (DotDims.transposedRhs M K N) K rfl rfl

/-- The left operand's index at result `(r, c)` and contraction position `k` is `(r, k)`. -/
theorem lhsIdx_eq (r : Fin M) (c : Fin N) (k : Fin K) :
    (DotDims.transposedRhs M K N).lhsIdx (ix2 r c) ((contrEquiv (M := M) (N := N)).symm k) = ix2 r k := by
  funext a
  refine Fin.ext ?_
  match a with
  | ⟨0, _⟩ => exact lhs_row _ _
  | ⟨1, _⟩ => exact (lhs_col _ _).trans (contrEquiv1_symm_val _ K rfl rfl k)

/-- The right operand's is `(c, k)`. -/
theorem rhsIdx_eq (r : Fin M) (c : Fin N) (k : Fin K) :
    (DotDims.transposedRhs M K N).rhsIdx (ix2 r c) ((contrEquiv (M := M) (N := N)).symm k) = ix2 c k := by
  funext a
  refine Fin.ext ?_
  match a with
  | ⟨0, _⟩ => exact rhs_row _ _
  | ⟨1, _⟩ => exact (rhs_col _ _).trans (contrEquiv1_symm_val _ K rfl rfl k)

/-- THE PRODUCT READ AT `(r, c)`: into a zero accumulator, the sum over `k` of `L[r, k] · R[c, k]`. -/
theorem matmul_zero_apply {φ₁ φ₂ : FTy} (prec : Option ContractPrecision)
    (L : FVec Ideal ⟨2, ![M, K]⟩ φ₁) (R : FVec Ideal ⟨2, ![N, K]⟩ φ₂) (r : Fin M) (c : Fin N) :
    FloatOps.matmul (DotDims.transposedRhs M K N) prec L R (constant ⟨2, ![M, N]⟩ .f32 0x00000000#32) (ix2 r c)
      = ∑ k : Fin K, L (ix2 r k) * R (ix2 c k) := by
  rw [Ideal.matmul_constant_zero_apply, ← Equiv.sum_comp (contrEquiv (M := M) (K := K) (N := N)).symm]
  refine Finset.sum_congr rfl fun k _ => ?_
  rw [lhsIdx_eq, rhsIdx_eq]

end Idealize.ShloMosaic.TransposedRhsDot

end
-- ==== Proof.KLogit.lean ====
/-
  The logits the kernel's body forms at one grid point, read at an index.

  At point t the body holds the whole feature block, rows 1000 t … 1000 t + 999 of the class weights, and the label
  column.  It normalises the rows of both blocks, multiplies the feature block by the transposed weight block, applies
  the margin at the entries whose class index 1000 t + j is the row's label, and scales by s: entry (b, j) of the
  result is the logit of row b at class 1000 t + j.
-/
import proofs.«403486_j49091476193958_1_alg».proof.Proof.Gen.KernelIdeal.Skeleton
import proofs.«403486_j49091476193958_1_alg».proof.Proof.Spec
import proofs.«403486_j49091476193958_1_alg».proof.Proof.LibKeepdimsColumn
import proofs.«403486_j49091476193958_1_alg».proof.Proof.LibTransposedRhsDot
import Idealize.ShloMosaic.Lib.ValueIdx
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx ArcLoss

open Idealize.ShloMosaic.KeepdimsColumn

variable [Cert.KernelIdeal.Facts]

/-- The class index 1000 t + j as a 32-bit word. -/
theorem classWord (t : Fin 100) (j : Fin 1000) :
    BitVec.ofNat 32 t.val * 1000#32 + BitVec.ofNat 32 j.val = BitVec.ofNat 32 (t.val * 1000 + j.val) := by
  apply BitVec.eq_of_toNat_eq
  simp [BitVec.toNat_add, BitVec.toNat_mul, BitVec.toNat_ofNat]

/-- A one-bit word made from a truth value is 1 exactly when the value is true. -/
theorem ofBool_eq_one_iff (c : Bool) : BitVec.ofBool c = 1#1 ↔ c = true := by
  cases c <;> decide

/-- The label test of point `t` at entry (b, j): the class index 1000 t + j against row b's label word. -/
theorem labelTest_apply (t : Fin 100) (x2 : Vec Ideal S512x1 .i32) (lab : Fin 512 → BitVec 32)
    (hl : ∀ b : Fin 512, x2 (ix2 b (0 : Fin 1)) = lab b) (b : Fin 512) (j : Fin 1000) :
    k0_pay12 (F := Ideal) (BitVec.ofNat 32 t.val) x2 (ix2 b j) = 1#1 ↔ (lab b).toNat = (blk t j).val := by
  unfold k0_pay12
  show IntOp.cmpi .eq (IntOp.addi (IntOp.muli (BitVec.ofNat 32 t.val) 1000#32) (iota .tc S512x1000 32 [1] iota_S512x1000_d1_w32 (ix2 b j)))
      (broadcastTo S512x1000 (shapeCast S512x1 x2 shapeCasts_S512x1_S512x1) broadcasts_S512x1_S512x1000 (ix2 b j)) = 1#1 ↔ _
  rw [iota_single_apply, broadcastTo_a1_ab_apply, shapeCast_self, hl]
  show BitVec.ofBool (BitVec.ofNat 32 t.val * 1000#32 + BitVec.ofNat 32 j.val == lab b) = 1#1 ↔ (lab b).toNat = t.val * 1000 + j.val
  have hlt : t.val * 1000 + j.val < 2 ^ 32 := by have := t.isLt; have := j.isLt; omega
  rw [classWord, ofBool_eq_one_iff, beq_iff_eq]
  constructor
  · intro h
    rw [← h, BitVec.toNat_ofNat, Nat.mod_eq_of_lt hlt]
  · intro h
    rw [← h, BitVec.ofNat_toNat, BitVec.setWidth_eq]

/-- A row-normalised [a, b] array read at (p, q): the entry over max(‖row p‖, ε). -/
theorem normalise_apply {a b : ℕ} (v : FVec Ideal ⟨2, ![a, b]⟩ .f32)
    (hR : Shape.Reduces ⟨2, ![a, b]⟩ [1] ⟨1, ![a]⟩) (hS : (⟨1, ![a]⟩ : Shape).ShapeCasts ⟨2, ![a, 1]⟩)
    (hB : (⟨2, ![a, 1]⟩ : Shape).Broadcasts ⟨2, ![a, b]⟩) (p : Fin a) (q : Fin b) :
    divf v (broadcastTo ⟨2, ![a, b]⟩
        (maximumf (sqrt (shapeCast ⟨2, ![a, 1]⟩
            (multiReduction (F := Ideal) .add [1] ⟨1, ![a]⟩ (mulf v v) 0x00000000#32 hR (.inl rfl) rfl) hS))
          (broadcast ⟨2, ![a, 1]⟩ (Scalar.ofBits (F := Ideal) .f32 0x2B8CBCCC#32))) hB) (ix2 p q)
      = Ideal.div (v (ix2 p q)) (nrm fun k : Fin b => v (ix2 p k)) := by
  rw [divf_apply]
  refine congrArg (Ideal.div (v (ix2 p q))) ?_
  refine (broadcastTo_a1_ab_apply _ hB p q).trans ?_
  rw [maximumf_apply]
  show max (Ideal.sqrt (shapeCast ⟨2, ![a, 1]⟩ _ hS (ix2 p (0 : Fin 1)))) cEps = _
  rw [shapeCast_a_a1_apply]
  exact congrArg (fun s => max (Ideal.sqrt s) cEps) (laneSum_ab_apply (mulf v v) _ hR (.inl rfl) rfl p)

/-- The product of the normalised blocks read at (b, j): the cosine of row b and class 1000 t + j. -/
theorem cosBlock_apply (t : Fin 100) (x0 : Vec Ideal S512x512 .f32) (x1 : Vec Ideal S1000x512 .f32)
    (x : Fin 512 → Fin 512 → EReal) (w : Fin 100000 → Fin 512 → EReal)
    (hx : ∀ (b k : Fin 512), x0 (ix2 b k) = x b k)
    (hw : ∀ (j : Fin 1000) (k : Fin 512), x1 (ix2 j k) = w (blk t j) k) (b : Fin 512) (j : Fin 1000) :
    k0_pay8 (F := Ideal) x0 x1 (ix2 b j) = cosAt x w b (blk t j) := by
  unfold k0_pay8
  refine (TransposedRhsDot.matmul_zero_apply (M := 512) (K := 512) (N := 1000) none _ _ b j).trans ?_
  unfold cosAt
  refine Finset.sum_congr rfl fun k _ => ?_
  rw [truncf_apply, truncf_apply, normalise_apply, normalise_apply, hx, hw,
    show (fun k => x0 (ix2 b k)) = x b from funext (hx b),
    show (fun k => x1 (ix2 j k)) = w (blk t j) from funext (hw j)]

/-- The margin branch read at an index, over the product block's entry there. -/
theorem marginBranch_apply (x0 : Vec Ideal S512x512 .f32) (x1 : Vec Ideal S1000x512 .f32) (i : S512x1000.Idx) :
    k0_pay9 (F := Ideal) x0 x1 i
      = k0_pay8 (F := Ideal) x0 x1 i * cCos
        - Ideal.sqrt (min cOne (max 0 (cOne - k0_pay8 (F := Ideal) x0 x1 i * k0_pay8 (F := Ideal) x0 x1 i))) * cSin := by
  unfold k0_pay9
  show k0_pay8 (F := Ideal) x0 x1 i * cCos
        - Ideal.sqrt (min cOne (max (lit 0x00000000#32)
            (cOne - k0_pay8 (F := Ideal) x0 x1 i * k0_pay8 (F := Ideal) x0 x1 i))) * cSin = _
  rw [lit_zero]

/-- The scaled block read at an index: the margin value of the product's entry where the label test holds, the entry
    itself elsewhere, times s. -/
theorem scaledBlock_apply (arg0 : BitVec 32) (x0 : Vec Ideal S512x512 .f32) (x1 : Vec Ideal S1000x512 .f32)
    (x2 : Vec Ideal S512x1 .i32) (i : S512x1000.Idx) :
    k0_pay13 (F := Ideal) arg0 (k0_pay8 x0 x1) (k0_pay9 x0 x1) (k0_pay10 x0 x1) k0_pay11 x2 i
      = Scalar.select (k0_pay12 (F := Ideal) arg0 x2 i) (margin (k0_pay8 (F := Ideal) x0 x1 i)) (k0_pay8 (F := Ideal) x0 x1 i) * cS := by
  unfold k0_pay13 margin
  show Scalar.select (k0_pay12 (F := Ideal) arg0 x2 i)
      (Scalar.select (k0_pay10 (F := Ideal) x0 x1 i) (k0_pay9 (F := Ideal) x0 x1 i)
        (k0_pay8 (F := Ideal) x0 x1 i - k0_pay11 (F := Ideal) i))
      (k0_pay8 (F := Ideal) x0 x1 i) * cS = _
  rw [marginBranch_apply]
  rfl

/-- The scaled logits of point `t`, entry (b, j): the logit of row b at class 1000 t + j. -/
theorem logitBlock_apply (t : Fin 100) (x0 : Vec Ideal S512x512 .f32) (x1 : Vec Ideal S1000x512 .f32)
    (x2 : Vec Ideal S512x1 .i32) (x : Fin 512 → Fin 512 → EReal) (w : Fin 100000 → Fin 512 → EReal)
    (lab : Fin 512 → BitVec 32) (hx : ∀ (b k : Fin 512), x0 (ix2 b k) = x b k)
    (hw : ∀ (j : Fin 1000) (k : Fin 512), x1 (ix2 j k) = w (blk t j) k)
    (hl : ∀ b : Fin 512, x2 (ix2 b (0 : Fin 1)) = lab b) (b : Fin 512) (j : Fin 1000) :
    k0_pay13 (F := Ideal) (BitVec.ofNat 32 t.val) (k0_pay8 x0 x1) (k0_pay9 x0 x1) (k0_pay10 x0 x1) k0_pay11 x2 (ix2 b j)
      = logit x w lab b (blk t j) := by
  have hlab := labelTest_apply t x2 lab hl b j
  rw [scaledBlock_apply, cosBlock_apply t x0 x1 x w hx hw b j]
  unfold logit Scalar.select
  by_cases h : (lab b).toNat = (blk t j).val
  · rw [if_pos h]
    exact congrArg (· * cS) (if_pos (hlab.mpr h))
  · rw [if_neg h]
    exact congrArg (· * cS) (if_neg (mt hlab.mp h))

end Cert.KernelIdeal.RowValue

end
-- ==== Proof.KBlocks.lean ====
/-
  What the kernel's three input windows hold at a grid point, read at an index.

  The feature window and the label window do not move: at every point their block is the whole array — the features as
  launched, and the label vector reshaped to a column.  The weight window advances by 1000 rows per point: at point t its
  block is rows 1000 t … 1000 t + 999 of the class weights as launched.
-/
import proofs.«403486_j49091476193958_1_alg».proof.Proof.Gen.KernelIdeal.Frame
import Idealize.ShloMosaic.Lib.Pipeline.Value
import Idealize.ShloMosaic.Lib.ValueIdx
import Idealize.ShloMosaic.Lib.StableHlo.Run
import proofs.«403486_j49091476193958_1_alg».proof.Proof.LibKeepdimsColumn

noncomputable section

open Idealize.ShloMosaic Idealize.ShloMosaic.TcCoe Idealize.SL.Sem Idealize.ShloMosaic.ValueIdx

namespace Cert.KernelIdeal.LossValue

open Cert.KernelIdeal Cert.KernelIdeal.Gen
open Idealize.ShloMosaic.KeepdimsColumn

variable {F : FTy → Type} [FloatOps F]
variable (m : (ℓ : Loc nD τ sig) → Buf (Elt F) ℓ)

/-- The one grid coordinate of point `t` is `t`. -/
theorem coord_eq (t : Fin cfg0.N) : ((grid0.coords t) 0).val = t.val :=
  (by decide +kernel : ∀ t : Fin grid0.N, ((grid0.coords t) 0).val = t.val) t

/-- The feature block at any point is the feature array as launched. -/
theorem xblock_apply (c : Dev nD) (t : Fin cfg0.N) (b k : Fin 512) :
    (iblk m c 0 t : Vec F S512x512 .f32) (ix2 b k) = m ((c : Thread nD τ).loc main_arg0) (ix2 b k) := by
  have hi : ∀ t : Fin cfg0.N, win0_0.index t 0 = 0 ∧ win0_0.index t 1 = 0 :=
    (by decide +kernel : ∀ t : Fin grid0.N, win0_0.index t 0 = 0 ∧ win0_0.index t 1 = 0)
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * b.val = b.val; rw [(hi t).1]; omega
  | ⟨1, _⟩ => show win0_0.index t 1 * 512 + 1 * k.val = k.val; rw [(hi t).2]; omega

/-- The weight block at point `t` is rows 1000 t … 1000 t + 999 of the class weights as launched. -/
theorem wblock_apply (c : Dev nD) (t : Fin cfg0.N) (j : Fin 1000) (k : Fin 512) (h : t.val * 1000 + j.val < 100000) :
    (iblk m c 1 t : Vec F S1000x512 .f32) (ix2 j k)
      = m ((c : Thread nD τ).loc main_arg1) (ix2 (⟨t.val * 1000 + j.val, h⟩ : Fin 100000) k) := by
  have hi : ∀ t : Fin cfg0.N, win0_1.index t 0 = t.val ∧ win0_1.index t 1 = 0 :=
    (by decide +kernel : ∀ t : Fin grid0.N, win0_1.index t 0 = t.val ∧ win0_1.index t 1 = 0)
  unfold iblk
  rw [View.read_apply]
  show V m c main_arg1 _ = m (c.tc.loc main_arg1) _
  rw [V_main_arg1]
  congr 1
  funext a
  apply Fin.ext
  match a with
  | ⟨0, _⟩ => show win0_1.index t 0 * 1000 + 1 * j.val = t.val * 1000 + j.val; rw [(hi t).1]; omega
  | ⟨1, _⟩ => show win0_1.index t 1 * 512 + 1 * k.val = k.val; rw [(hi t).2]; omega

/-- The label block at any point is the label vector as launched, laid out as a column. -/
theorem lblock_apply (c : Dev nD) (t : Fin cfg0.N) (b : Fin 512) :
    (iblk m c 2 t : Vec F S512x1 .i32) (ix2 b (0 : Fin 1)) = m ((c : Thread nD τ).loc main_arg2) (ix1 b) := by
  have hi : ∀ t : Fin cfg0.N, win0_2.index t 0 = 0 ∧ win0_2.index t 1 = 0 :=
    (by decide +kernel : ∀ t : Fin grid0.N, win0_2.index t 0 = 0 ∧ win0_2.index t 1 = 0)
  have e : (V m c main_v0 : S512x1.Idx → _)
      = shapeCast S512x1 (m ((c : Thread nD τ).loc main_arg2)) shapeCasts_S512_S512x1 := by
    dsimp only [V, V0]
    simp only [hostOps0, List.flatten_cons, List.flatten_nil, List.append_nil]
    after_results
    rfl
  unfold iblk
  rw [View.read_apply]
  show V m c main_v0 _ = _
  rw [e]
  refine (congrArg (shapeCast S512x1 (m ((c : Thread nD τ).loc main_arg2)) shapeCasts_S512_S512x1)
    (?_ : _ = ix2 b (0 : Fin 1))).trans (shapeCast_a_a1_apply _ _ b 0)
  funext a
  apply Fin.ext
  match a with
  | ⟨0, _⟩ => show win0_2.index t 0 * 512 + 1 * b.val = b.val; rw [(hi t).1]; omega
  | ⟨1, _⟩ => show win0_2.index t 1 * 1 + 1 * 0 = 0; rw [(hi t).2]

end Cert.KernelIdeal.LossValue

end
-- ==== Proof.KInv.lean ====
/-
  What the kernel's four carried columns hold after each grid point: on every row, the state of the one-pass loss after
  that many blocks.

  Point t forms the logits of classes 1000 t … 1000 t + 999 from its three input blocks (the whole features, 1000 rows
  of class weights, the label column) and updates the columns; what a column holds before the point is what the point
  before left (and the freshly stored start values at point 0).  By induction on the point, row b of the columns after
  point n is `accAt z ℓ n` for z the logit row of b and ℓ its label; the loss column the last point stores is the one-pass
  loss of the row.
-/
import proofs.«403486_j49091476193958_1_alg».proof.Proof.KPieces
import proofs.«403486_j49091476193958_1_alg».proof.Proof.KRow
import proofs.«403486_j49091476193958_1_alg».proof.Proof.KLogit
import proofs.«403486_j49091476193958_1_alg».proof.Proof.KBlocks
import proofs.«403486_j49091476193958_1_alg».proof.Proof.Spec

set_option maxRecDepth 16384

noncomputable section

open Idealize.ShloMosaic Idealize.ShloMosaic.TcCoe Idealize.SL.Sem Idealize.ShloMosaic.ValueIdx

namespace Cert.KernelIdeal.LossValue

open Cert.KernelIdeal Cert.KernelIdeal.Gen Cert.KernelIdeal.Pieces Cert.KernelIdeal.RowValue ArcLoss

variable (m : (ℓ : Loc nD τ sig) → Buf (Elt Ideal) ℓ)

/-- The features, the class weights and the labels as launched on core `c`, by coordinates. -/
abbrev feat (c : Dev nD) : Fin 512 → Fin 512 → EReal := fun b k => m ((c : Thread nD τ).loc main_arg0) (ix2 b k)
abbrev wts (c : Dev nD) : Fin 100000 → Fin 512 → EReal := fun r k => m ((c : Thread nD τ).loc main_arg1) (ix2 r k)
abbrev labs (c : Dev nD) : Fin 512 → BitVec 32 := fun b => m ((c : Thread nD τ).loc main_arg2) (ix1 b)

/-- The logit row of batch row `b`. -/
abbrev zrow (c : Dev nD) (b : Fin 512) : Fin 100000 → EReal := logit (feat m c) (wts m c) (labs m c) b

/-- The three input blocks of point `t`, at their literal types. -/
abbrev xb (c : Dev nD) (t : Fin cfg0.N) : Vec Ideal S512x512 .f32 := iblk m c 0 t
abbrev wb (c : Dev nD) (t : Fin cfg0.N) : Vec Ideal S1000x512 .f32 := iblk m c 1 t
abbrev lbk (c : Dev nD) (t : Fin cfg0.N) : Vec Ideal S512x1 .i32 := iblk m c 2 t

/-- ONE POINT ON ONE ROW: from columns holding the pass's state `a` at row b, the four new columns of point `t` hold
    `step` of block t. -/
theorem point_step (c : Dev nD) (b : Fin 512) (t : Fin cfg0.N) (ht : t.val < 100) (s0 s1 s2 s3 : Vec Ideal S512x1 .f32)
    (a : Acc) (h0 : s0 (ix2 b (0 : Fin 1)) = a.m) (h1 : s1 (ix2 b (0 : Fin 1)) = a.l)
    (h2 : s2 (ix2 b (0 : Fin 1)) = a.so) (h3 : s3 (ix2 b (0 : Fin 1)) = a.tg) :
    newM (BitVec.ofNat 32 ((grid0.coords t) 0).val) (xb m c t) (wb m c t) (lbk m c t) s0 (ix2 b (0 : Fin 1))
        = (step (zrow m c b) (labs m c b) ⟨t.val, ht⟩ a).m
    ∧ newL (BitVec.ofNat 32 ((grid0.coords t) 0).val) (xb m c t) (wb m c t) (lbk m c t) s0 s1 (ix2 b (0 : Fin 1))
        = (step (zrow m c b) (labs m c b) ⟨t.val, ht⟩ a).l
    ∧ newSO (BitVec.ofNat 32 ((grid0.coords t) 0).val) (xb m c t) (wb m c t) (lbk m c t) s2 (ix2 b (0 : Fin 1))
        = (step (zrow m c b) (labs m c b) ⟨t.val, ht⟩ a).so
    ∧ newTG (BitVec.ofNat 32 ((grid0.coords t) 0).val) (xb m c t) (wb m c t) (lbk m c t) s3 (ix2 b (0 : Fin 1))
        = (step (zrow m c b) (labs m c b) ⟨t.val, ht⟩ a).tg := by
  rw [coord_eq t]
  exact row_step ⟨t.val, ht⟩ (BitVec.ofNat 32 t.val) (k0_pay8 (xb m c t) (wb m c t)) (k0_pay9 (xb m c t) (wb m c t))
    (k0_pay10 (xb m c t) (wb m c t)) k0_pay11 (lbk m c t) s0 s1 s2 s3 (zrow m c b) (labs m c b) a b
    (fun j => logitBlock_apply ⟨t.val, ht⟩ (xb m c t) (wb m c t) (lbk m c t) (feat m c) (wts m c) (labs m c)
      (fun b' k => xblock_apply m c t b' k)
      (fun j' k => wblock_apply m c t j' k (by have := j'.isLt; omega))
      (fun b' => lblock_apply m c t b') b j)
    (fun j => labelTest_apply ⟨t.val, ht⟩ (lbk m c t) (labs m c) (fun b' => lblock_apply m c t b') b j)
    h0 h1 h2 h3

/-- Row b of the four carried columns after point n is the pass's state after blocks 0 … n. -/
theorem columns_eq (c : Dev nD) (b : Fin 512) : ∀ (n : ℕ) (h : n < cfg0.N) (h' : n < 100),
    (outsAt0 m c n h).2.1 (ix2 b (0 : Fin 1)) = (accAt (zrow m c b) (labs m c b) n h').m
    ∧ (outsAt0 m c n h).2.2.1 (ix2 b (0 : Fin 1)) = (accAt (zrow m c b) (labs m c b) n h').l
    ∧ (outsAt0 m c n h).2.2.2.1 (ix2 b (0 : Fin 1)) = (accAt (zrow m c b) (labs m c b) n h').so
    ∧ (outsAt0 m c n h).2.2.2.2 (ix2 b (0 : Fin 1)) = (accAt (zrow m c b) (labs m c b) n h').tg
  | 0, h, h' => by
    rw [outsAt0_A m c ⟨0, h⟩ rfl (by dsimp only; omega)]
    dsimp only
    rw [sout_A_0, sout_A_1, sout_A_2, sout_A_3]
    exact point_step m c b ⟨0, h⟩ h' (k0_pay4 (F := Ideal)) (k0_pay5 (F := Ideal)) (k0_pay6 (F := Ideal)) (k0_pay7 (F := Ideal)) Acc.init
      (init_apply (ix2 b (0 : Fin 1))).1 (init_apply (ix2 b (0 : Fin 1))).2.1 (init_apply (ix2 b (0 : Fin 1))).2.2.1
      (init_apply (ix2 b (0 : Fin 1))).2.2.2
  | n + 1, h, h' => by
    have ih := columns_eq c b n (Nat.lt_of_succ_lt h) (Nat.lt_of_succ_lt h')
    rw [show accAt (zrow m c b) (labs m c b) (n + 1) h'
        = step (zrow m c b) (labs m c b) ⟨n + 1, h'⟩ (accAt (zrow m c b) (labs m c b) n (Nat.lt_of_succ_lt h')) from rfl]
    have hne : ¬(⟨n + 1, h⟩ : Fin cfg0.N).val % 100 = 0 := by dsimp only; omega
    by_cases h99 : (⟨n + 1, h⟩ : Fin cfg0.N).val % 100 = 99
    · rw [outsAt0_C m c ⟨n + 1, h⟩ hne h99]
      dsimp only
      rw [sout_C_0, sout_C_1, sout_C_2, sout_C_3]
      exact point_step m c b ⟨n + 1, h⟩ h' _ _ _ _ _ ih.1 ih.2.1 ih.2.2.1 ih.2.2.2
    · rw [outsAt0_B m c ⟨n + 1, h⟩ hne h99]
      dsimp only
      rw [sout_B_0, sout_B_1, sout_B_2, sout_B_3]
      exact point_step m c b ⟨n + 1, h⟩ h' _ _ _ _ _ ih.1 ih.2.1 ih.2.2.1 ih.2.2.2

/-- One more block of the pass. -/
theorem accAt_succ (z : Fin 100000 → EReal) (ℓ : BitVec 32) (n : ℕ) (h : n + 1 < 100) :
    accAt z ℓ (n + 1) h = step z ℓ ⟨n + 1, h⟩ (accAt z ℓ n (Nat.lt_of_succ_lt h)) := rfl

/-- The pass after all hundred blocks, as one more block over the ninety-nine before. -/
theorem accAt_last (z : Fin 100000 → EReal) (ℓ : BitVec 32) (k : ℕ) (hk : k = 99) (h1 : k < 100) (h2 : k - 1 < 100) :
    accAt z ℓ 99 (by decide) = step z ℓ ⟨k, h1⟩ (accAt z ℓ (k - 1) h2) := by
  subst hk
  exact accAt_succ z ℓ 98 (by decide)

/-- Row b of the loss column the last point stores is the one-pass loss of the row. -/
theorem lossColumn_apply (c : Dev nD) (b : Fin 512) (t : Fin cfg0.N) (ht : t.val = 99) :
    (outsAt0 m c t.val t.isLt).1 (ix2 b (0 : Fin 1)) = onlineRowLoss (zrow m c b) (labs m c b) := by
  have hlt : t.val < 100 := by omega
  have hp : t.val - 1 < 100 := by omega
  have ih := columns_eq m c b (t.val - 1) (Nat.lt_of_le_of_lt (Nat.sub_le _ _) t.isLt) hp
  rw [outsAt0_C m c t (by omega) (by omega)]
  dsimp only
  rw [out_C]
  have st := point_step m c b t hlt _ _ _ _ _ ih.1 ih.2.1 ih.2.2.1 ih.2.2.2
  have e : onlineRowLoss (zrow m c b) (labs m c b)
      = finish (step (zrow m c b) (labs m c b) ⟨t.val, hlt⟩ (accAt (zrow m c b) (labs m c b) (t.val - 1) hp)) :=
    congrArg finish (accAt_last (zrow m c b) (labs m c b) t.val ht hlt hp)
  rw [e]
  exact row_finish _ _ _ _ _ _ b st.2.1 st.2.2.2 st.1 st.2.2.1 st.1

end Cert.KernelIdeal.LossValue

end
-- ==== Proof.KTail.lean ====
/-
  The two host operations after the kernel: the sum of the loss column divided by the batch size is the batch mean.
-/
import proofs.«403486_j49091476193958_1_alg».proof.KernelIdeal
import proofs.«403486_j49091476193958_1_alg».proof.Proof.Spec
import Idealize.ShloMosaic.Lib.ValueIdx
import Idealize.ShloMosaic.PureOps.Ideal.Laws

noncomputable section

open scoped BigOperators

namespace Cert.KernelIdeal.LossValue

open Cert.KernelIdeal Idealize.ShloMosaic Idealize.ShloMosaic.ValueIdx ArcLoss

variable [Cert.KernelIdeal.Facts]

/-- The host's sum over the whole [512, 1] column from zero, divided by 512, is the batch mean of the column's rows. -/
theorem tail_apply (A : (⟨S512x1, .f32⟩ : BufTy).Contents (Elt Ideal)) (f : Fin 512 → EReal)
    (hA : ∀ b : Fin 512, A (ix2 b (0 : Fin 1)) = f b) :
    Host.divf (F := Ideal) (Host.reduceAdd (F := Ideal) A (constant (F := Ideal) S_ .f32 0x00000000#32) Facts₀.reducesTo_S512x1_S_d0_1 Facts₀.h_S_)
        (constant (F := Ideal) S_ .f32 0x44000000#32)
      = fun _ => batchMean f := by
  funext i
  show Ideal.div (Ideal.hostReduceAdd Facts₀.reducesTo_S512x1_S_d0_1 A (Ideal.ofBits .f32 0x00000000#32) i)
      (Ideal.ofBits .f32 0x44000000#32) = batchMean f
  rw [Ideal.hostReduceAdd_total _ (fun b => b.elim0), Ideal.ofBits_zero_f32, zero_add]
  unfold batchMean
  refine congrArg (fun s => Ideal.div s c512) ?_
  rw [sum_idx2]
  refine Finset.sum_congr rfl fun b _ => ?_
  rw [Fin.sum_univ_one]
  exact hA b

end Cert.KernelIdeal.LossValue

end
-- ==== Proof.KValue.lean ====
/-
  The kernel's run, read: its result is the batch mean of the one-pass row losses.

  The output window is written back once, after the last point, and its one block is the whole [512, 1] result array: so
  the array ends holding the loss column the last point stored.  The two host operations after the kernel then sum the
  column and divide by the batch size.
-/
import proofs.«403486_j49091476193958_1_alg».proof.Proof.KInv
import proofs.«403486_j49091476193958_1_alg».proof.Proof.KTail
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LossValue

open Cert.KernelIdeal Cert.KernelIdeal.Gen ArcLoss

variable (m : (ℓ : Loc nD τ sig) → Buf (Elt Ideal) ℓ) (ρ : Dev nD → PrngReg)

/-- The grid has a hundredth point, the last one. -/
theorem hLast : 99 < cfg0.N := by rw [show cfg0.N = 100 from N_0]; decide

/-- The last point. -/
def tLast : Fin cfg0.N := ⟨99, hLast⟩

theorem tLast_val : tLast.val = 99 := rfl

/-- The output window's block index at the last point is zero on both axes, and its block is the whole [512, 1] array. -/
theorem tLast_index : win0_3.index tLast 0 * win0_3.size 0 = 0 ∧ win0_3.index tLast 1 * win0_3.size 1 = 0
    ∧ win0_3.xsize (grid0.coords tLast) 0 = 512 ∧ win0_3.xsize (grid0.coords tLast) 1 = 1 := by decide +kernel

theorem tLast_offsets : (fun a => win0_3.index tLast a * main_v1.ty.shape.size a) = fun _ => 0 :=
  funext fun a => by fin_cases a <;> decide +kernel

/-- The loss column, as contents of the kernel's result array: row b holds the one-pass loss of batch row b. -/
abbrev lossCol (c : Dev nD) : Buf (Elt Ideal) ((c : Thread nD τ).loc main_v1) :=
  fun (i : S512x1.Idx) => onlineRowLoss (zrow m c (i 0)) (labs m c (i 0))

/-- What the body leaves in the output's staging buffer at a point numbered 99 is the loss column: row b of it is the
    one-pass loss of batch row b, by the invariant of the four carried columns over the points before it. -/
theorem after_eq (c : Dev nD) (t : Fin cfg0.N) (h99 : t.val = 99) : (dats m 0 c).after 3 t = lossCol m c := by
  rw [after0_3]
  funext i
  obtain ⟨b, q, rfl⟩ : ∃ (b : Fin 512) (q : Fin 1), i = ix2 b q := ⟨i 0, i 1, eq_ix2 i⟩
  obtain rfl : q = 0 := Subsingleton.elim _ _
  exact lossColumn_apply m c b t h99

/-- The output window's block at the last point is the whole [512, 1] array at zero offsets: what the write-back moves
    out of a staging buffer holding `G` is the array `G` read through that block. -/
theorem cut_last (c : Dev nD) (G : Buf (Elt Ideal) ((c : Thread nD τ).loc main_v1)) :
    (cfg0.win 3).cut (grid0.coords tLast) G = ((cfg0.win 3).blk tLast).view.read (Elt Ideal) G :=
  (Memref.read_access_unit_zero (Elt Ideal) main_v1 tLast_offsets
    (fun a => by rw [congrFun tLast_offsets a]; simp) G).symm

/-- The one write-back, after the last point, writes the loss column: its block is the whole array. -/
theorem flushed_eq (c : Dev nD) (t : Fin cfg0.N) (hf : (cfg0.win 3).flush t = true) :
    (dats m 0 c).flushed 3 t = ((cfg0.win 3).blk t).view.read (Elt Ideal) (lossCol m c) := by
  have hN : cfg0.N = 100 := N_0
  have h99 : t.val = 99 := by have := (flush0_3 t).mp hf; have := t.isLt; omega
  show (cfg0.win 3).cut (grid0.coords t) ((dats m 0 c).after 3 t) = _
  rw [after_eq m c t h99]
  obtain rfl : t = tLast := Fin.ext (h99.trans tLast_val.symm)
  exact cut_last c (lossCol m c)

/-- So the result array of the kernel ends holding the loss column. -/
theorem final_col (c : Dev nD) : (dats m 0 c).arrAt 3 cfg0.N = lossCol m c :=
  (dats m 0 c).arrAt_eq_of_cover 3 (lossCol m c) (flushed_eq m c) fun i =>
    ⟨tLast, (flush0_3 tLast).mpr (by rw [tLast_val]), by
      show i ∈ ((View.whole main_v1).slice (win0_3.rect tLast)).set
      rw [View.set_slice_whole, Rect.mem_set_unit]
      intro a
      have h0 : (i 0 : Nat) < 512 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [tLast_index.1, tLast_index.2.2.1]; omega
      | ⟨1, _⟩ =>
        show win0_3.index tLast 1 * win0_3.size 1 ≤ (i 1 : Nat) ∧ (i 1 : Nat) < win0_3.index tLast 1 * win0_3.size 1 + win0_3.xsize (grid0.coords tLast) 1
        rw [tLast_index.2.1, tLast_index.2.2.2]; omega⟩

/-- The kernel program's result: the batch mean of the one-pass losses of the rows. -/
abbrev result (c : Dev nD) : Buf (Elt Ideal) ((c : Thread nD τ).loc main_v3) :=
  fun _ => batchMean (fun b => onlineRowLoss (zrow m c b) (labs m c b))

/-- After the two host operations that follow the kernel, the result buffer holds it. -/
theorem tail_eq (c : Dev nD) : Pipeline.afterTail₀ cfgs (dats m) 0 (V0 m) [hostOps1] c main_v3 = result m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v1)
      = lossCol m c := (Pipeline.withArrays_arr spec0 launch0.win.arr_inj c _ _ 3).trans (final_col m c)
  rw [e]
  exact tail_apply (lossCol m c) (fun b => onlineRowLoss (zrow m c b) (labs m c b)) (fun b => rfl)

/-- THE KERNEL PROGRAM'S RUN, READ: every weakly fair execution ends with the result buffer at the batch mean of the
    one-pass row losses and the three arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.LossValue

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibScatterSet.lean ====
/-
  STABLEHLO'S SCATTER WITH A `SET` BODY, read at an index, for the dimension numbers that writing a block, a row
  segment or a row into a matrix at ONE literal start index lowers to (`x.at[:, o:o+K].set(v)`, `x.at[r, o:o+K].set(v)`,
  `x.at[o:o+K, :].set(v)`, `x.at[r, :].set(v)`).

  `Host.scatter` folds over the update indices; with a body that returns the update, an operand element on which
  exactly the updates of one value land ends at that value, and one on which no update lands keeps the operand's
  (`scatter_set_hit`, `scatter_set_miss`). For one start index every update index lands on its own operand element, so
  the four shapes below read as: inside the written window the update's element, outside it the operand's.
-/
import Idealize.ShloMosaic.PureOps.Ideal
import Idealize.ShloMosaic.Lib.ValueIdx
import proofs.«403486_j49091476193958_1_alg».proof.Proof.LibGatherScatter

noncomputable section

namespace Idealize.ShloMosaic.ScatterSet

open Idealize.ShloMosaic Idealize.ShloMosaic.ValueIdx Idealize.ShloMosaic.GatherScatter

/-! ## The fold, in general -/

section General
variable {s si u : Shape} {α : Type} {w : Nat}

/-- One step of the fold: update number `n` replaces the element it lands on, if any, by its value. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with a `set` body is the fold of that step over the update numbers. -/
private theorem scatter_eq_foldl (d : ScatterDims s si u) (x : s.Idx → α) (idx : IVec si w) (upd : u.Idx → α) :
    Host.scatter d (fun _ b => b) x idx upd = (List.finRange u.numel).foldl (setStep d idx upd) x := rfl

/-- A step whose update lands on `i` leaves the update's value at `i`. -/
private theorem setStep_of_some (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  exact if_pos rfl

/-- A step whose update does not land on `i` leaves the element at `i` as it was. -/
private theorem setStep_of_ne (d : ScatterDims s si u) (idx : IVec si w) (upd : u.Idx → α) (r : s.Idx → α)
    (n : Fin u.numel) (i : s.Idx) (h : d.resultIdx? (u.rowMajor.symm n) idx ≠ some i) :
    setStep d idx upd r n i = r i := by
  unfold setStep
  cases hres : d.resultIdx? (u.rowMajor.symm n) idx with
  | none => rfl
  | some i' =>
    have hne : i ≠ i' := fun e => h (by rw [hres, e])
    exact if_neg hne

/-- Folding over update numbers none of which lands on `i` leaves the element at `i` as it was. -/
private theorem foldl_miss (d : ScatterDims s si u) (idx : IVec si w) (upd : u.Idx → α) (i : s.Idx)
    (L : List (Fin u.numel)) (r : s.Idx → α)
    (hnone : ∀ n ∈ L, d.resultIdx? (u.rowMajor.symm n) idx ≠ some i) :
    L.foldl (setStep d idx upd) r i = r i := by
  induction L generalizing r with
  | nil => rfl
  | cons n L ih =>
    rw [List.foldl_cons, ih _ fun m hm => hnone m (List.mem_cons_of_mem _ hm),
      setStep_of_ne d idx upd r n i (hnone n List.mem_cons_self)]

/-- Folding over update numbers one of which lands on `i`, all those that do carrying the value `v`, leaves `v`
    at `i`: after the last of them no later step touches `i`. -/
private theorem foldl_hit (d : ScatterDims s si u) (idx : IVec si w) (upd : u.Idx → α) (i : s.Idx) (v : α)
    (L : List (Fin u.numel)) (r : s.Idx → α)
    (hex : ∃ n ∈ L, d.resultIdx? (u.rowMajor.symm n) idx = some i)
    (hall : ∀ n ∈ L, d.resultIdx? (u.rowMajor.symm n) idx = some i → upd (u.rowMajor.symm n) = v) :
    L.foldl (setStep d idx upd) r i = v := by
  induction L generalizing r with
  | nil => obtain ⟨n, hn, _⟩ := hex; cases hn
  | cons n L ih =>
    rw [List.foldl_cons]
    by_cases hL : ∃ m ∈ L, d.resultIdx? (u.rowMajor.symm m) idx = some i
    · exact ih _ hL fun m hm => hall m (List.mem_cons_of_mem _ hm)
    · have hnone : ∀ m ∈ L, d.resultIdx? (u.rowMajor.symm m) idx ≠ some i := fun m hm e => hL ⟨m, hm, e⟩
      have hn : d.resultIdx? (u.rowMajor.symm n) idx = some i := by
        obtain ⟨m, hm, e⟩ := hex
        rcases List.mem_cons.mp hm with rfl | hm'
        · exact e
        · exact absurd e (hnone m hm')
      rw [foldl_miss d idx upd i L _ hnone, setStep_of_some d idx upd r n i hn]
      exact hall n List.mem_cons_self hn

/-- HIT: if update index `j` lands on `i` and every update index landing on `i` carries `j`'s value, the result at
    `i` is that value. -/
theorem scatter_set_hit (d : ScatterDims s si u) (x : s.Idx → α) (idx : IVec si w) (upd : u.Idx → α) (i : s.Idx)
    (j : u.Idx) (hj : d.resultIdx? j idx = some i)
    (hall : ∀ j', d.resultIdx? j' idx = some i → upd j' = upd j) :
    Host.scatter d (fun _ b => b) x idx upd i = upd j := by
  rw [scatter_eq_foldl]
  refine foldl_hit d idx upd i (upd j) _ x ⟨u.rowMajor j, List.mem_finRange _, ?_⟩ fun n _ hn => hall _ hn
  rw [Equiv.symm_apply_apply]
  exact hj

/-- MISS: if no update index lands on `i`, the result at `i` is the operand's element. -/
theorem scatter_set_miss (d : ScatterDims s si u) (x : s.Idx → α) (idx : IVec si w) (upd : u.Idx → α) (i : s.Idx)
    (hnone : ∀ j, d.resultIdx? j idx ≠ some i) :
    Host.scatter d (fun _ b => b) x idx upd i = x i := by
  rw [scatter_eq_foldl]
  exact foldl_miss d idx upd i _ x fun n _ => hnone _

end General

/-! ## A block of columns: `x.at[:, o:o+K].set(v)`

Operand `[R, C]`, scatter indices `[1]` (the start column), updates `[R, K]`: update_window_dims `[0, 1]`,
inserted_window_dims `[]`, scatter_dims_to_operand_dims `[1]`, index_vector_dim 0. -/

abbrev colBlockDims (R C K : Nat) (wf : ScatterDims.WF ⟨2, ![R, C]⟩ ⟨1, ![1]⟩ ⟨2, ![R, K]⟩ [0, 1] [] [1] 0) :
    ScatterDims ⟨2, ![R, C]⟩ ⟨1, ![1]⟩ ⟨2, ![R, K]⟩ where
  updateWindowDims := [0, 1]
  insertedWindowDims := []
  scatterDimsToOperandDims := [1]
  indexVectorDim := 0
  wf := wf

section ColBlock
variable {R C K w : Nat} (wf : ScatterDims.WF ⟨2, ![R, C]⟩ ⟨1, ![1]⟩ ⟨2, ![R, K]⟩ [0, 1] [] [1] 0)

/-- The scatter index names no row: on the operand's row axis the window starts at `0`. -/
private theorem colBlock_start0 (idx : IVec ⟨1, ![1]⟩ w) (j : (⟨2, ![R, K]⟩ : Shape).Idx) :
    (colBlockDims R C K wf).start j idx 0 = 0 := by
  unfold ScatterDims.start
  rw [dif_neg (by decide : (0 : Fin 2) ∉ ([1] : List (Fin 2)))]

/-- On the operand's column axis the window starts at the scatter index, read signed. -/
private theorem colBlock_start1 (idx : IVec ⟨1, ![1]⟩ w) (j : (⟨2, ![R, K]⟩ : Shape).Idx) :
    (colBlockDims R C K wf).start j idx 1 = (idx (ix1 0)).toInt := by
  have hmem : (1 : Fin 2) ∈ (colBlockDims R C K wf).scatterDimsToOperandDims := List.mem_singleton.mpr rfl
  have hsi : (colBlockDims R C K wf).siIdx j ⟨List.idxOf (1 : Fin 2) (colBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The window coordinate on the operand's row axis is the update's row. -/
private theorem colBlock_window0 (a : Fin R) (b : Fin K) : (colBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem colBlock_window1 (a : Fin R) (b : Fin K) : (colBlockDims R C K wf).window (ix2 a b) 1 = b.val := by
  unfold ScatterDims.window
  rw [dif_pos (mem_kept (by decide : (1 : Fin 2) ∉ ([] : List (Fin 2))))]
  rfl

/-- Update `(a, b)` lands on element `(r, c)` exactly when `a` is `r` and the start column plus `b` is `c`. -/
private theorem colBlock_resultIdx (idx : IVec ⟨1, ![1]⟩ w) (o : Nat) (ho : (idx (ix1 0)).toInt = (o : Int))
    (a : Fin R) (b : Fin K) (r : Fin R) (c : Fin C) :
    (colBlockDims R C K wf).resultIdx? (ix2 a b) idx = some (ix2 r c) ↔ (a = r ∧ o + b.val = c.val) := by
  rw [resultIdx?_eq_some_iff]
  constructor
  · intro H
    have h0 := H 0
    have h1 := H 1
    rw [colBlock_start0, colBlock_window0, zero_add] at h0
    rw [colBlock_start1, colBlock_window1, ho] at h1
    have h0' : (a.val : Int) = (r.val : Int) := h0
    have h1' : (o : Int) + (b.val : Int) = (c.val : Int) := h1
    exact ⟨Fin.ext (by omega), by omega⟩
  · rintro ⟨rfl, H⟩ e
    match e with
    | ⟨0, _⟩ =>
      show (colBlockDims R C K wf).start (ix2 a b) idx 0 + ((colBlockDims R C K wf).window (ix2 a b) 0 : Int) = (a.val : Int)
      rw [colBlock_start0, colBlock_window0, zero_add]
    | ⟨1, _⟩ =>
      show (colBlockDims R C K wf).start (ix2 a b) idx 1 + ((colBlockDims R C K wf).window (ix2 a b) 1 : Int) = (c.val : Int)
      rw [colBlock_start1, colBlock_window1, ho]
      omega

end ColBlock

/-- Columns `o … o+K−1` hold the update, the others the operand. -/
theorem colBlockSet_apply {α : Type} {R C K w : Nat} (wf : ScatterDims.WF ⟨2, ![R, C]⟩ ⟨1, ![1]⟩ ⟨2, ![R, K]⟩ [0, 1] [] [1] 0)
    (x : (⟨2, ![R, C]⟩ : Shape).Idx → α) (idx : IVec ⟨1, ![1]⟩ w) (upd : (⟨2, ![R, K]⟩ : Shape).Idx → α)
    (o : Nat) (ho : (idx (ix1 0)).toInt = (o : Int)) (r : Fin R) (c : Fin C) :
    Host.scatter (colBlockDims R C K wf) (fun _ b => b) x idx upd (ix2 r c)
      = if h : o ≤ c.val ∧ c.val < o + K then upd (ix2 r ⟨c.val - o, by omega⟩) else x (ix2 r c) := by
  by_cases h : o ≤ c.val ∧ c.val < o + K
  · rw [dif_pos h]
    refine scatter_set_hit _ x idx upd _ (ix2 r ⟨c.val - o, by omega⟩) ?_ ?_
    · exact (colBlock_resultIdx wf idx o ho _ _ _ _).mpr ⟨rfl, by show o + (c.val - o) = c.val; omega⟩
    · intro j' hj'
      obtain ⟨a, b, rfl⟩ : ∃ (a : Fin R) (b : Fin K), j' = ix2 a b := ⟨j' 0, j' 1, eq_ix2 j'⟩
      obtain ⟨rfl, hb⟩ := (colBlock_resultIdx wf idx o ho _ _ _ _).mp hj'
      have hbe : b = ⟨c.val - o, by omega⟩ := Fin.ext (by show b.val = c.val - o; omega)
      rw [hbe]
  · rw [dif_neg h]
    refine scatter_set_miss _ x idx upd _ fun j' hj' => h ?_
    obtain ⟨a, b, rfl⟩ : ∃ (a : Fin R) (b : Fin K), j' = ix2 a b := ⟨j' 0, j' 1, eq_ix2 j'⟩
    obtain ⟨_, hb⟩ := (colBlock_resultIdx wf idx o ho _ _ _ _).mp hj'
    have := b.isLt
    omega

/-! ## A block of rows: `x.at[o:o+K, :].set(v)`

Operand `[R, C]`, scatter indices `[1]` (the start row), updates `[K, C]`: update_window_dims `[0, 1]`,
inserted_window_dims `[]`, scatter_dims_to_operand_dims `[0]`, index_vector_dim 0. -/

abbrev rowBlockDims (R C K : Nat) (wf : ScatterDims.WF ⟨2, ![R, C]⟩ ⟨1, ![1]⟩ ⟨2, ![K, C]⟩ [0, 1] [] [0] 0) :
    ScatterDims ⟨2, ![R, C]⟩ ⟨1, ![1]⟩ ⟨2, ![K, C]⟩ where
  updateWindowDims := [0, 1]
  insertedWindowDims := []
  scatterDimsToOperandDims := [0]
  indexVectorDim := 0
  wf := wf

section RowBlock
variable {R C K w : Nat} (wf : ScatterDims.WF ⟨2, ![R, C]⟩ ⟨1, ![1]⟩ ⟨2, ![K, C]⟩ [0, 1] [] [0] 0)

/-- On the operand's row axis the window starts at the scatter index, read signed. -/
private theorem rowBlock_start0 (idx : IVec ⟨1, ![1]⟩ w) (j : (⟨2, ![K, C]⟩ : Shape).Idx) :
    (rowBlockDims R C K wf).start j idx 0 = (idx (ix1 0)).toInt := by
  have hmem : (0 : Fin 2) ∈ (rowBlockDims R C K wf).scatterDimsToOperandDims := List.mem_singleton.mpr rfl
  have hsi : (rowBlockDims R C K wf).siIdx j ⟨List.idxOf (0 : Fin 2) (rowBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem rowBlock_start1 (idx : IVec ⟨1, ![1]⟩ w) (j : (⟨2, ![K, C]⟩ : Shape).Idx) :
    (rowBlockDims R C K wf).start j idx 1 = 0 := by
  unfold ScatterDims.start
  rw [dif_neg (by decide : (1 : Fin 2) ∉ ([0] : List (Fin 2)))]

/-- The window coordinate on the operand's row axis is the update's row. -/
private theorem rowBlock_window0 (a : Fin K) (b : Fin C) : (rowBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem rowBlock_window1 (a : Fin K) (b : Fin C) : (rowBlockDims R C K wf).window (ix2 a b) 1 = b.val := by
  unfold ScatterDims.window
  rw [dif_pos (mem_kept (by decide : (1 : Fin 2) ∉ ([] : List (Fin 2))))]
  rfl

/-- Update `(a, b)` lands on element `(r, c)` exactly when the start row plus `a` is `r` and `b` is `c`. -/
private theorem rowBlock_resultIdx (idx : IVec ⟨1, ![1]⟩ w) (o : Nat) (ho : (idx (ix1 0)).toInt = (o : Int))
    (a : Fin K) (b : Fin C) (r : Fin R) (c : Fin C) :
    (rowBlockDims R C K wf).resultIdx? (ix2 a b) idx = some (ix2 r c) ↔ (o + a.val = r.val ∧ b = c) := by
  rw [resultIdx?_eq_some_iff]
  constructor
  · intro H
    have h0 := H 0
    have h1 := H 1
    rw [rowBlock_start0, rowBlock_window0, ho] at h0
    rw [rowBlock_start1, rowBlock_window1, zero_add] at h1
    have h0' : (o : Int) + (a.val : Int) = (r.val : Int) := h0
    have h1' : (b.val : Int) = (c.val : Int) := h1
    exact ⟨by omega, Fin.ext (by omega)⟩
  · rintro ⟨H, rfl⟩ e
    match e with
    | ⟨0, _⟩ =>
      show (rowBlockDims R C K wf).start (ix2 a b) idx 0 + ((rowBlockDims R C K wf).window (ix2 a b) 0 : Int) = (r.val : Int)
      rw [rowBlock_start0, rowBlock_window0, ho]
      omega
    | ⟨1, _⟩ =>
      show (rowBlockDims R C K wf).start (ix2 a b) idx 1 + ((rowBlockDims R C K wf).window (ix2 a b) 1 : Int) = (b.val : Int)
      rw [rowBlock_start1, rowBlock_window1, zero_add]

end RowBlock

/-- Rows `o … o+K−1` hold the update, the others the operand. -/
theorem rowBlockSet_apply {α : Type} {R C K w : Nat} (wf : ScatterDims.WF ⟨2, ![R, C]⟩ ⟨1, ![1]⟩ ⟨2, ![K, C]⟩ [0, 1] [] [0] 0)
    (x : (⟨2, ![R, C]⟩ : Shape).Idx → α) (idx : IVec ⟨1, ![1]⟩ w) (upd : (⟨2, ![K, C]⟩ : Shape).Idx → α)
    (o : Nat) (ho : (idx (ix1 0)).toInt = (o : Int)) (r : Fin R) (c : Fin C) :
    Host.scatter (rowBlockDims R C K wf) (fun _ b => b) x idx upd (ix2 r c)
      = if h : o ≤ r.val ∧ r.val < o + K then upd (ix2 ⟨r.val - o, by omega⟩ c) else x (ix2 r c) := by
  by_cases h : o ≤ r.val ∧ r.val < o + K
  · rw [dif_pos h]
    refine scatter_set_hit _ x idx upd _ (ix2 ⟨r.val - o, by omega⟩ c) ?_ ?_
    · exact (rowBlock_resultIdx wf idx o ho _ _ _ _).mpr ⟨by show o + (r.val - o) = r.val; omega, rfl⟩
    · intro j' hj'
      obtain ⟨a, b, rfl⟩ : ∃ (a : Fin K) (b : Fin C), j' = ix2 a b := ⟨j' 0, j' 1, eq_ix2 j'⟩
      obtain ⟨ha, rfl⟩ := (rowBlock_resultIdx wf idx o ho _ _ _ _).mp hj'
      have hae : a = ⟨r.val - o, by omega⟩ := Fin.ext (by show a.val = r.val - o; omega)
      rw [hae]
  · rw [dif_neg h]
    refine scatter_set_miss _ x idx upd _ fun j' hj' => h ?_
    obtain ⟨a, b, rfl⟩ : ∃ (a : Fin K) (b : Fin C), j' = ix2 a b := ⟨j' 0, j' 1, eq_ix2 j'⟩
    obtain ⟨ha, _⟩ := (rowBlock_resultIdx wf idx o ho _ _ _ _).mp hj'
    have := a.isLt
    omega

/-! ## One whole row: `x.at[o, :].set(v)`

Operand `[R, C]`, scatter indices `[1]` (the row), updates `[C]`: update_window_dims `[0]`, inserted_window_dims
`[0]`, scatter_dims_to_operand_dims `[0]`, index_vector_dim 0. -/

abbrev oneRowDims (R C : Nat) (wf : ScatterDims.WF ⟨2, ![R, C]⟩ ⟨1, ![1]⟩ ⟨1, ![C]⟩ [0] [0] [0] 0) :
    ScatterDims ⟨2, ![R, C]⟩ ⟨1, ![1]⟩ ⟨1, ![C]⟩ where
  updateWindowDims := [0]
  insertedWindowDims := [0]
  scatterDimsToOperandDims := [0]
  indexVectorDim := 0
  wf := wf

section OneRow
variable {R C w : Nat} (wf : ScatterDims.WF ⟨2, ![R, C]⟩ ⟨1, ![1]⟩ ⟨1, ![C]⟩ [0] [0] [0] 0)

/-- On the operand's row axis the window starts at the scatter index, read signed. -/
private theorem oneRow_start0 (idx : IVec ⟨1, ![1]⟩ w) (j : (⟨1, ![C]⟩ : Shape).Idx) :
    (oneRowDims R C wf).start j idx 0 = (idx (ix1 0)).toInt := by
  have hmem : (0 : Fin 2) ∈ (oneRowDims R C wf).scatterDimsToOperandDims := List.mem_singleton.mpr rfl
  have hsi : (oneRowDims R C wf).siIdx j ⟨List.idxOf (0 : Fin 2) (oneRowDims R C wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem oneRow_start1 (idx : IVec ⟨1, ![1]⟩ w) (j : (⟨1, ![C]⟩ : Shape).Idx) :
    (oneRowDims R C wf).start j idx 1 = 0 := by
  unfold ScatterDims.start
  rw [dif_neg (by decide : (1 : Fin 2) ∉ ([0] : List (Fin 2)))]

/-- The row axis is inserted: the window coordinate on it is `0`. -/
private theorem oneRow_window0 (j : (⟨1, ![C]⟩ : Shape).Idx) : (oneRowDims R C wf).window j 0 = 0 := by
  unfold ScatterDims.window
  rw [dif_neg (not_mem_kept (List.mem_singleton.mpr rfl))]

/-- The window coordinate on the operand's column axis is the update's coordinate. -/
private theorem oneRow_window1 (b : Fin C) : (oneRowDims R C wf).window (ix1 b) 1 = b.val := by
  unfold ScatterDims.window
  rw [dif_pos (mem_kept (by decide : (1 : Fin 2) ∉ ([0] : List (Fin 2))))]
  rfl

/-- Update `b` lands on element `(r, c)` exactly when the scatter index is `r` and `b` is `c`. -/
private theorem oneRow_resultIdx (idx : IVec ⟨1, ![1]⟩ w) (o : Nat) (ho : (idx (ix1 0)).toInt = (o : Int))
    (b : Fin C) (r : Fin R) (c : Fin C) :
    (oneRowDims R C wf).resultIdx? (ix1 b) idx = some (ix2 r c) ↔ (r.val = o ∧ b = c) := by
  rw [resultIdx?_eq_some_iff]
  constructor
  · intro H
    have h0 := H 0
    have h1 := H 1
    rw [oneRow_start0, oneRow_window0, ho, Nat.cast_zero, add_zero] at h0
    rw [oneRow_start1, oneRow_window1, zero_add] at h1
    have h0' : (o : Int) = (r.val : Int) := h0
    have h1' : (b.val : Int) = (c.val : Int) := h1
    exact ⟨by omega, Fin.ext (by omega)⟩
  · rintro ⟨H, rfl⟩ e
    match e with
    | ⟨0, _⟩ =>
      show (oneRowDims R C wf).start (ix1 b) idx 0 + ((oneRowDims R C wf).window (ix1 b) 0 : Int) = (r.val : Int)
      rw [oneRow_start0, oneRow_window0, ho, Nat.cast_zero, add_zero]
      omega
    | ⟨1, _⟩ =>
      show (oneRowDims R C wf).start (ix1 b) idx 1 + ((oneRowDims R C wf).window (ix1 b) 1 : Int) = (b.val : Int)
      rw [oneRow_start1, oneRow_window1, zero_add]

end OneRow

/-- Row `o` holds the update, the others the operand. -/
theorem oneRowSet_apply {α : Type} {R C w : Nat} (wf : ScatterDims.WF ⟨2, ![R, C]⟩ ⟨1, ![1]⟩ ⟨1, ![C]⟩ [0] [0] [0] 0)
    (x : (⟨2, ![R, C]⟩ : Shape).Idx → α) (idx : IVec ⟨1, ![1]⟩ w) (upd : (⟨1, ![C]⟩ : Shape).Idx → α)
    (o : Nat) (ho : (idx (ix1 0)).toInt = (o : Int)) (r : Fin R) (c : Fin C) :
    Host.scatter (oneRowDims R C wf) (fun _ b => b) x idx upd (ix2 r c)
      = if r.val = o then upd (ix1 c) else x (ix2 r c) := by
  by_cases h : r.val = o
  · rw [if_pos h]
    refine scatter_set_hit _ x idx upd _ (ix1 c) ?_ ?_
    · exact (oneRow_resultIdx wf idx o ho _ _ _).mpr ⟨h, rfl⟩
    · intro j' hj'
      obtain ⟨b, rfl⟩ : ∃ b : Fin C, j' = ix1 b := ⟨j' 0, eq_ix1 j'⟩
      obtain ⟨_, rfl⟩ := (oneRow_resultIdx wf idx o ho _ _ _).mp hj'
      rfl
  · rw [if_neg h]
    refine scatter_set_miss _ x idx upd _ fun j' hj' => h ?_
    obtain ⟨b, rfl⟩ : ∃ b : Fin C, j' = ix1 b := ⟨j' 0, eq_ix1 j'⟩
    exact ((oneRow_resultIdx wf idx o ho _ _ _).mp hj').1

/-! ## A segment of one row: `x.at[r₀, o:o+K].set(v)`

Operand `[R, C]`, scatter indices `[2]` (the row and the start column), updates `[K]`: update_window_dims `[0]`,
inserted_window_dims `[0]`, scatter_dims_to_operand_dims `[0, 1]`, index_vector_dim 0. -/

abbrev rowSegDims (R C K : Nat) (wf : ScatterDims.WF ⟨2, ![R, C]⟩ ⟨1, ![2]⟩ ⟨1, ![K]⟩ [0] [0] [0, 1] 0) :
    ScatterDims ⟨2, ![R, C]⟩ ⟨1, ![2]⟩ ⟨1, ![K]⟩ where
  updateWindowDims := [0]
  insertedWindowDims := [0]
  scatterDimsToOperandDims := [0, 1]
  indexVectorDim := 0
  wf := wf

section RowSeg
variable {R C K w : Nat} (wf : ScatterDims.WF ⟨2, ![R, C]⟩ ⟨1, ![2]⟩ ⟨1, ![K]⟩ [0] [0] [0, 1] 0)

/-- On the operand's row axis the window starts at the first scatter index, read signed. -/
private theorem rowSeg_start0 (idx : IVec ⟨1, ![2]⟩ w) (j : (⟨1, ![K]⟩ : Shape).Idx) :
    (rowSegDims R C K wf).start j idx 0 = (idx (ix1 0)).toInt := by
  have hmem : (0 : Fin 2) ∈ (rowSegDims R C K wf).scatterDimsToOperandDims :=
    (by decide : (0 : Fin 2) ∈ ([0, 1] : List (Fin 2)))
  have hsi : (rowSegDims R C K wf).siIdx j ⟨List.idxOf (0 : Fin 2) (rowSegDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- On the operand's column axis the window starts at the second scatter index, read signed. -/
private theorem rowSeg_start1 (idx : IVec ⟨1, ![2]⟩ w) (j : (⟨1, ![K]⟩ : Shape).Idx) :
    (rowSegDims R C K wf).start j idx 1 = (idx (ix1 1)).toInt := by
  have hmem : (1 : Fin 2) ∈ (rowSegDims R C K wf).scatterDimsToOperandDims :=
    (by decide : (1 : Fin 2) ∈ ([0, 1] : List (Fin 2)))
  have hsi : (rowSegDims R C K wf).siIdx j ⟨List.idxOf (1 : Fin 2) (rowSegDims R C K wf).scatterDimsToOperandDims,
      List.idxOf_lt_length_iff.2 hmem⟩ = ix1 1 := by
    funext b; refine Fin.ext ?_
    match b with
    | ⟨0, _⟩ => rfl
  unfold ScatterDims.start
  rw [dif_pos hmem, hsi]

/-- The row axis is inserted: the window coordinate on it is `0`. -/
private theorem rowSeg_window0 (j : (⟨1, ![K]⟩ : Shape).Idx) : (rowSegDims R C K wf).window j 0 = 0 := by
  unfold ScatterDims.window
  rw [dif_neg (not_mem_kept (List.mem_singleton.mpr rfl))]

/-- The window coordinate on the operand's column axis is the update's coordinate. -/
private theorem rowSeg_window1 (b : Fin K) : (rowSegDims R C K wf).window (ix1 b) 1 = b.val := by
  unfold ScatterDims.window
  rw [dif_pos (mem_kept (by decide : (1 : Fin 2) ∉ ([0] : List (Fin 2))))]
  rfl

/-- Update `b` lands on element `(r, c)` exactly when the first scatter index is `r` and the second plus `b` is
    `c`. -/
private theorem rowSeg_resultIdx (idx : IVec ⟨1, ![2]⟩ w) (r₀ o : Nat) (hr : (idx (ix1 0)).toInt = (r₀ : Int))
    (ho : (idx (ix1 1)).toInt = (o : Int)) (b : Fin K) (r : Fin R) (c : Fin C) :
    (rowSegDims R C K wf).resultIdx? (ix1 b) idx = some (ix2 r c) ↔ (r.val = r₀ ∧ o + b.val = c.val) := by
  rw [resultIdx?_eq_some_iff]
  constructor
  · intro H
    have h0 := H 0
    have h1 := H 1
    rw [rowSeg_start0, rowSeg_window0, hr, Nat.cast_zero, add_zero] at h0
    rw [rowSeg_start1, rowSeg_window1, ho] at h1
    have h0' : (r₀ : Int) = (r.val : Int) := h0
    have h1' : (o : Int) + (b.val : Int) = (c.val : Int) := h1
    exact ⟨by omega, by omega⟩
  · rintro ⟨H0, H1⟩ e
    match e with
    | ⟨0, _⟩ =>
      show (rowSegDims R C K wf).start (ix1 b) idx 0 + ((rowSegDims R C K wf).window (ix1 b) 0 : Int) = (r.val : Int)
      rw [rowSeg_start0, rowSeg_window0, hr, Nat.cast_zero, add_zero]
      omega
    | ⟨1, _⟩ =>
      show (rowSegDims R C K wf).start (ix1 b) idx 1 + ((rowSegDims R C K wf).window (ix1 b) 1 : Int) = (c.val : Int)
      rw [rowSeg_start1, rowSeg_window1, ho]
      omega

end RowSeg

/-- Columns `o … o+K−1` of row `r₀` hold the update, every other element the operand. -/
theorem rowSegSet_apply {α : Type} {R C K w : Nat} (wf : ScatterDims.WF ⟨2, ![R, C]⟩ ⟨1, ![2]⟩ ⟨1, ![K]⟩ [0] [0] [0, 1] 0)
    (x : (⟨2, ![R, C]⟩ : Shape).Idx → α) (idx : IVec ⟨1, ![2]⟩ w) (upd : (⟨1, ![K]⟩ : Shape).Idx → α)
    (r₀ o : Nat) (hr : (idx (ix1 0)).toInt = (r₀ : Int)) (ho : (idx (ix1 1)).toInt = (o : Int)) (r : Fin R) (c : Fin C) :
    Host.scatter (rowSegDims R C K wf) (fun _ b => b) x idx upd (ix2 r c)
      = if h : r.val = r₀ ∧ o ≤ c.val ∧ c.val < o + K then upd (ix1 ⟨c.val - o, by omega⟩) else x (ix2 r c) := by
  by_cases h : r.val = r₀ ∧ o ≤ c.val ∧ c.val < o + K
  · rw [dif_pos h]
    refine scatter_set_hit _ x idx upd _ (ix1 ⟨c.val - o, by omega⟩) ?_ ?_
    · exact (rowSeg_resultIdx wf idx r₀ o hr ho _ _ _).mpr ⟨h.1, by show o + (c.val - o) = c.val; omega⟩
    · intro j' hj'
      obtain ⟨b, rfl⟩ : ∃ b : Fin K, j' = ix1 b := ⟨j' 0, eq_ix1 j'⟩
      obtain ⟨_, hb⟩ := (rowSeg_resultIdx wf idx r₀ o hr ho _ _ _).mp hj'
      have hbe : b = ⟨c.val - o, by omega⟩ := Fin.ext (by show b.val = c.val - o; omega)
      rw [hbe]
  · rw [dif_neg h]
    refine scatter_set_miss _ x idx upd _ fun j' hj' => h ?_
    obtain ⟨b, rfl⟩ : ∃ b : Fin K, j' = ix1 b := ⟨j' 0, eq_ix1 j'⟩
    obtain ⟨hr', hb⟩ := (rowSeg_resultIdx wf idx r₀ o hr ho _ _ _).mp hj'
    have := b.isLt
    exact ⟨hr', by omega, by omega⟩

end Idealize.ShloMosaic.ScatterSet

end
-- ==== Proof.LibPairIndex.lean ====
/-
  A MATRIX READ AND WRITTEN AT ONE INDEX PAIR PER ROW, read at an index.

  `x[r, c]` of a matrix `x : [N, N']` at integer arrays `r, c : [M]` is a `stablehlo.gather` whose start indices are
  the pairs `[M, 2]` (offset_dims `[]`, collapsed_slice_dims `[0, 1]`, start_index_map `[0, 1]`, index_vector_dim 1,
  slice_sizes `[1, 1]`), and `x.at[r, c].set(v)` is a `stablehlo.scatter` over the same pairs whose body returns the
  update. The pairs themselves are a `concatenate` along axis 1 of the two index vectors, each broadcast to a column.

  * `pairGather_apply`: the gather's element `j` is the operand at the pair `(idx[j, 0], idx[j, 1])`, each component
    read SIGNED and CLAMPED into the operand; `pairGather_apply_inRange` is the same when the pair is an operand index.
  * `pairSet_apply`: when pair `j`'s row component is `j` itself (`r = arange`), every update lands in its own row, so
    the result at `(r, c)` is update `r` when pair `r`'s column component is `c`, and the operand's element otherwise.
  * `pairs_col0` / `pairs_col1` / `column_apply`: the pairs array read at `(j, 0)` and `(j, 1)`.
  * `wrap_of_nonneg`: jnp's normalisation of a negative index (`select (i < 0) (i + n) i`) leaves a non-negative one.
-/
import Idealize.ShloMosaic.PureOps.Ideal
import Idealize.ShloMosaic.Lib.ValueIdx
import Idealize.ShloMosaic.Lib.Pipeline.Value
import proofs.«403486_j49091476193958_1_alg».proof.Proof.LibGatherScatter
import proofs.«403486_j49091476193958_1_alg».proof.Proof.LibScatterSet

noncomputable section

namespace Idealize.ShloMosaic.PairIndex

open Idealize.ShloMosaic Idealize.ShloMosaic.ValueIdx Idealize.ShloMosaic.GatherScatter Idealize.ShloMosaic.ScatterSet

/-! ## The gather at index pairs -/

section PairGather
variable {α : Type}

/-- The dimension numbers of `x[r, c]` for an operand `[N, N']`, start indices `[M, 2]` and result `[M]`; their
    conditions `wf` are decided on a program's literal shapes. -/
abbrev pairGatherDims (N N' M : Nat)
    (wf : GatherDims.WF ⟨2, ![N, N']⟩ ⟨2, ![M, 2]⟩ ⟨1, ![M]⟩ [] [0, 1] [] [0, 1] [] 1 ![1, 1]) :
    GatherDims ⟨2, ![N, N']⟩ ⟨2, ![M, 2]⟩ ⟨1, ![M]⟩ where
  offsetDims := []
  collapsedSliceDims := [0, 1]
  operandBatchingDims := []
  startIndicesBatchingDims := []
  startIndexMap := [0, 1]
  indexVectorDim := 1
  sliceSizes := ![1, 1]
  wf := wf

variable {N N' M w : Nat} (wf : GatherDims.WF ⟨2, ![N, N']⟩ ⟨2, ![M, 2]⟩ ⟨1, ![M]⟩ [] [0, 1] [] [0, 1] [] 1 ![1, 1])

/-- Result element `j`'s slice starts, on the operand's row axis, at `idx[j, 0]` read signed and clamped into
    `[0, N − 1]`. -/
theorem pairGather_start0 (idx : IVec ⟨2, ![M, 2]⟩ w) (j : Fin M) :
    (pairGatherDims N N' M wf).start (ix1 j) idx 0 = min (idx (ix2 j 0)).toInt.toNat (N - 1) := by
  have hmem : (0 : Fin 2) ∈ (pairGatherDims N N' M wf).startIndexMap :=
    (by decide : (0 : Fin 2) ∈ ([0, 1] : List (Fin 2)))
  have hsi : (pairGatherDims N N' M wf).siIdx (ix1 j) ⟨List.idxOf (0 : Fin 2) (pairGatherDims N N' M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- … and on the column axis at `idx[j, 1]` read signed and clamped into `[0, N' − 1]`. -/
theorem pairGather_start1 (idx : IVec ⟨2, ![M, 2]⟩ w) (j : Fin M) :
    (pairGatherDims N N' M wf).start (ix1 j) idx 1 = min (idx (ix2 j 1)).toInt.toNat (N' - 1) := by
  have hmem : (1 : Fin 2) ∈ (pairGatherDims N N' M wf).startIndexMap :=
    (by decide : (1 : Fin 2) ∈ ([0, 1] : List (Fin 2)))
  have hsi : (pairGatherDims N N' M wf).siIdx (ix1 j) ⟨List.idxOf (1 : Fin 2) (pairGatherDims N N' M wf).startIndexMap,
      List.idxOf_lt_length_iff.2 hmem⟩ = ix2 j 1 := by
    funext b; refine Fin.ext ?_
    match b with
    | ⟨0, _⟩ => rfl
    | ⟨1, _⟩ => rfl
  unfold GatherDims.start
  rw [dif_pos hmem, hsi]
  rfl

/-- THE GATHER READ AT `j`: the operand at the pair `(idx[j, 0], idx[j, 1])`, each component read signed and
    clamped into the operand. -/
theorem pairGather_apply (hN : 0 < N) (hN' : 0 < N')
    (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) :
    Host.gather (pairGatherDims N N' M wf) x idx (ix1 j)
      = x (ix2 ⟨min (idx (ix2 j 0)).toInt.toNat (N - 1), by omega⟩
               ⟨min (idx (ix2 j 1)).toInt.toNat (N' - 1), by omega⟩) := by
  unfold Host.gather
  congr 1
  funext a
  refine Fin.ext ?_
  rw [operandIdx_val, batchCoord_of_nil _ rfl, Nat.add_zero]
  match a with
  | ⟨0, _⟩ =>
    show (pairGatherDims N N' M wf).start (ix1 j) idx 0 + (pairGatherDims N N' M wf).offCoord (ix1 j) 0 = _
    rw [pairGather_start0, offCoord_of_collapsed _ _ (by decide : (0 : Fin 2) ∈ ([0, 1] : List (Fin 2)))]
    rfl
  | ⟨1, _⟩ =>
    show (pairGatherDims N N' M wf).start (ix1 j) idx 1 + (pairGatherDims N N' M wf).offCoord (ix1 j) 1 = _
    rw [pairGather_start1, offCoord_of_collapsed _ _ (by decide : (1 : Fin 2) ∈ ([0, 1] : List (Fin 2)))]
    rfl

/-- The gather at `j` when its pair is the operand index `(r, c)`: the operand there. -/
theorem pairGather_apply_inRange (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) (r : Fin N) (c : Fin N')
    (h0 : (idx (ix2 j 0)).toInt = (r.val : Int)) (h1 : (idx (ix2 j 1)).toInt = (c.val : Int)) :
    Host.gather (pairGatherDims N N' M wf) x idx (ix1 j) = x (ix2 r c) := by
  have hr := r.isLt
  have hc := c.isLt
  rw [pairGather_apply (by omega) (by omega) wf x idx j]
  congr 1
  funext a
  refine Fin.ext ?_
  match a with
  | ⟨0, _⟩ =>
    show min (idx (ix2 j 0)).toInt.toNat (N - 1) = r.val
    rw [h0, Int.toNat_natCast]; omega
  | ⟨1, _⟩ =>
    show min (idx (ix2 j 1)).toInt.toNat (N' - 1) = c.val
    rw [h1, Int.toNat_natCast]; omega

end PairGather

/-! ## Scalars set into a matrix, one per row -/

section PairSet
variable {α : Type} {N N' w : Nat}

/-- SET AT ONE PAIR PER ROW, read at `(r, c)`: with pair `j`'s row component `j` itself, update `r` when pair `r`'s column
    component, read signed, is `c`; the operand's element otherwise (a column component outside the operand lands
    nowhere). -/
theorem pairSet_apply (wf : ScatterDims.WF ⟨2, ![N, N']⟩ ⟨2, ![N, 2]⟩ ⟨1, ![N]⟩ [] [0, 1] [0, 1] 1)
    (x : (⟨2, ![N, N']⟩ : Shape).Idx → α) (idx : IVec ⟨2, ![N, 2]⟩ w) (upd : (⟨1, ![N]⟩ : Shape).Idx → α)
    (hrow : ∀ j : Fin N, (idx (ix2 j 0)).toInt = (j.val : Int)) (r : Fin N) (c : Fin N') :
    Host.scatter (pairScatterDims N N' N wf) (fun _ b => b) x idx upd (ix2 r c)
      = if (idx (ix2 r 1)).toInt = (c.val : Int) then upd (ix1 r) else x (ix2 r c) := by
  by_cases h : (idx (ix2 r 1)).toInt = (c.val : Int)
  · rw [if_pos h]
    refine scatter_set_hit _ x idx upd _ (ix1 r) ((pairScatter_resultIdx wf idx r r c).mpr ⟨hrow r, h⟩) ?_
    intro j' hj'
    obtain ⟨j, rfl⟩ : ∃ j : Fin N, j' = ix1 j := ⟨j' 0, eq_ix1 j'⟩
    have h0 := ((pairScatter_resultIdx wf idx j r c).mp hj').1
    rw [hrow j] at h0
    have e : j = r := Fin.ext (by exact_mod_cast h0)
    rw [e]
  · rw [if_neg h]
    refine scatter_set_miss _ x idx upd _ fun j' hj' => h ?_
    obtain ⟨j, rfl⟩ : ∃ j : Fin N, j' = ix1 j := ⟨j' 0, eq_ix1 j'⟩
    obtain ⟨h0, h1⟩ := (pairScatter_resultIdx wf idx j r c).mp hj'
    rw [hrow j] at h0
    have e : j = r := Fin.ext (by exact_mod_cast h0)
    rw [← e]; exact h1

end PairSet

/-! ## The pairs array -/

section Pairs
variable {α : Type} {M : Nat}

/-- A vector broadcast to a column reads, at `(j, 0)`, the vector at `j`. -/
theorem column_apply (h : (⟨1, ![M]⟩ : Shape).BroadcastsInDim ⟨2, ![M, 1]⟩ ![0]) (v : (⟨1, ![M]⟩ : Shape).Idx → α)
    (j : Fin M) : broadcastInDim ⟨2, ![M, 1]⟩ ![0] h v (ix2 j 0) = v (ix1 j) := by
  simp only [broadcastInDim]
  congr 1
  funext a
  obtain rfl : a = 0 := Subsingleton.elim _ _
  apply Fin.ext
  have hj := j.isLt
  split
  · next h1 => change M = 1 at h1; show (0 : Nat) = j.val; omega
  · rfl

/-- Two columns laid side by side read, at `(j, 0)`, the first column. -/
theorem pairs_col0 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 0) = a (ix2 j 0) :=
  concatenate_pair_apply_left (t := ⟨2, ![M, 2]⟩) (s₁ := ⟨2, ![M, 1]⟩) (s₂ := ⟨2, ![M, 1]⟩) (1 : Fin 2) a b h (ix2 j 0) rfl
      (ix2 j 0) fun d => by
    match d with
    | ⟨0, _⟩ => rfl
    | ⟨1, _⟩ => rfl

/-- … and, at `(j, 1)`, the second. -/
theorem pairs_col1 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 1) = b (ix2 j 0) :=
  concatenate_pair_apply_right (t := ⟨2, ![M, 2]⟩) (s₁ := ⟨2, ![M, 1]⟩) (s₂ := ⟨2, ![M, 1]⟩) (1 : Fin 2) a b h (ix2 j 1) rfl rfl
    (ix2 j 0) (fun d hd => by
      match d with
      | ⟨0, _⟩ => rfl
      | ⟨1, _⟩ => exact absurd rfl hd) (by rfl)

end Pairs

/-! ## A non-negative index is not wrapped -/

/-- `select (i < 0) (i + n) i` at a word that is non-negative read signed is that word. -/
theorem wrap_of_nonneg (i n : BitVec 32) (h : 0 ≤ i.toInt) :
    Scalar.select (IntOp.cmpi .slt i 0#32) (IntOp.addi i n) i = i := by
  have : IntOp.cmpi .slt i 0#32 = 0#1 := by
    simp only [IntOp.cmpi]
    have : ¬ i.slt 0#32 := by
      simp only [BitVec.slt, BitVec.toInt_zero, decide_eq_true_eq, not_lt]; exact h
    simp [this]
  rw [this]
  exact select_zero _ _

end Idealize.ShloMosaic.PairIndex

end
-- ==== Proof.RPairs.lean ====
/-
  The index pairs the reference gathers and scatters at.

  For `a[rows, label]` jnp builds, three times over, a [512, 2] array of index pairs: column 0 is the row number
  (an iota, passed through jnp's negative-index wrap, which leaves it alone), column 1 the row's label (passed through
  the same wrap, which leaves a non-negative label alone).
-/
import proofs.«403486_j49091476193958_1_alg».proof.Proof.RefRead
import proofs.«403486_j49091476193958_1_alg».proof.Proof.LibPairIndex
import Idealize.ShloMosaic.Lib.ValueIdx

noncomputable section

namespace Cert.ReferenceIdeal.RefValue

open Cert.ReferenceIdeal Cert.ReferenceIdeal.Read Idealize.ShloMosaic Idealize.ShloMosaic.ValueIdx

variable [Cert.ReferenceIdeal.Facts]

/-- A row number below 512, written as a 32-bit word, reads back signed as itself. -/
theorem toInt_ofNat_row (n : Nat) (h : n < 512) : (BitVec.ofNat 32 n).toInt = (n : Int) := by
  have e : (BitVec.ofNat 32 n).toNat = n := by rw [BitVec.toNat_ofNat]; omega
  rw [BitVec.toInt_eq_toNat_of_lt (by rw [e]; omega), e]

/-- The wrap of a negative index, `select (i < 0) (i + n) i`, at the word of a row number `b < 512`: the word is
    non-negative, so it is left alone, and reads signed as `b`. -/
theorem wrap_row (n : BitVec 32) (b : Fin 512) :
    (Scalar.select (IntOp.cmpi .slt (BitVec.ofNat 32 b.val) 0#32) (IntOp.addi (BitVec.ofNat 32 b.val) n)
      (BitVec.ofNat 32 b.val)).toInt = (b.val : Int) := by
  have hb := toInt_ofNat_row b.val b.isLt
  rw [PairIndex.wrap_of_nonneg _ _ (by rw [hb]; omega), hb]

/-- Two vectors of 512 words, each broadcast to a column, laid side by side: the array reads the first vector at
    `(b, 0)` and the second at `(b, 1)`. -/
theorem pairs_of_columns (hb : S512.BroadcastsInDim S512x1 ![0]) (hc : Shape.Concatenates [S512x1, S512x1] S512x2 1)
    (r l : S512.Idx → BitVec 32) (b : Fin 512) :
    concatenate S512x2 1 [⟨S512x1, broadcastInDim S512x1 ![0] hb r⟩, ⟨S512x1, broadcastInDim S512x1 ![0] hb l⟩] hc (ix2 b 0)
        = r (ix1 b)
      ∧ concatenate S512x2 1 [⟨S512x1, broadcastInDim S512x1 ![0] hb r⟩, ⟨S512x1, broadcastInDim S512x1 ![0] hb l⟩] hc (ix2 b 1)
        = l (ix1 b) := by
  refine ⟨?_, ?_⟩
  · rw [PairIndex.pairs_col0 (M := 512), PairIndex.column_apply (M := 512)]
  · rw [PairIndex.pairs_col1 (M := 512), PairIndex.column_apply (M := 512)]

/-- The pairs of the first gather: row b's pair is (b, label b). -/
theorem pairs46 (x2 : (⟨S512, .i32⟩ : BufTy).Contents (Elt Ideal)) (h0 : ∀ b : Fin 512, 0 ≤ (x2 (ix1 b)).toInt) (b : Fin 512) :
    (val_main_v46 (F := Ideal) x2 (ix2 b 0)).toInt = (b.val : Int) ∧ val_main_v46 (F := Ideal) x2 (ix2 b 1) = x2 (ix1 b) := by
  unfold val_main_v46 val_main_v44 val_main_v45
  refine ⟨?_, ?_⟩
  · -- column 0: the iota, compared with 0, added to 512, selected
    rw [(pairs_of_columns _ _ _ _ b).1, val_main_v38_apply, val_main_v35_apply, val_main_v37_apply, val_main_v34_apply, val_main_c_apply,
      val_main_v33_apply]
    exact wrap_row _ b
  · -- column 1: the label, compared with 0, added to 100000, selected
    rw [(pairs_of_columns _ _ _ _ b).2, val_main_v43_apply, val_main_v40_apply, val_main_v42_apply, val_main_v39_apply, val_main_c_11_apply]
    exact PairIndex.wrap_of_nonneg _ _ (h0 b)

/-- The pairs of the scatter: the same. -/
theorem pairs60 (x2 : (⟨S512, .i32⟩ : BufTy).Contents (Elt Ideal)) (h0 : ∀ b : Fin 512, 0 ≤ (x2 (ix1 b)).toInt) (b : Fin 512) :
    (val_main_v60 (F := Ideal) x2 (ix2 b 0)).toInt = (b.val : Int) ∧ val_main_v60 (F := Ideal) x2 (ix2 b 1) = x2 (ix1 b) := by
  unfold val_main_v60 val_main_v58 val_main_v59
  refine ⟨?_, ?_⟩
  · -- column 0: the iota, compared with 0, added to 512, selected
    rw [(pairs_of_columns _ _ _ _ b).1, val_main_v52_apply, val_main_v49_apply, val_main_v51_apply, val_main_v48_apply, val_main_c_13_apply,
      val_main_v33_apply]
    exact wrap_row _ b
  · -- column 1: the label, compared with 0, added to 100000, selected
    rw [(pairs_of_columns _ _ _ _ b).2, val_main_v57_apply, val_main_v54_apply, val_main_v56_apply, val_main_v53_apply, val_main_c_15_apply]
    exact PairIndex.wrap_of_nonneg _ _ (h0 b)

/-- The pairs of the second gather: the same. -/
theorem pairs77 (x2 : (⟨S512, .i32⟩ : BufTy).Contents (Elt Ideal)) (h0 : ∀ b : Fin 512, 0 ≤ (x2 (ix1 b)).toInt) (b : Fin 512) :
    (val_main_v77 (F := Ideal) x2 (ix2 b 0)).toInt = (b.val : Int) ∧ val_main_v77 (F := Ideal) x2 (ix2 b 1) = x2 (ix1 b) := by
  unfold val_main_v77 val_main_v75 val_main_v76
  refine ⟨?_, ?_⟩
  · -- column 0: the iota, compared with 0, added to 512, selected
    rw [(pairs_of_columns _ _ _ _ b).1, val_main_v69_apply, val_main_v66_apply, val_main_v68_apply, val_main_v65_apply, val_main_c_18_apply,
      val_main_v33_apply]
    exact wrap_row _ b
  · -- column 1: the label, compared with 0, added to 100000, selected
    rw [(pairs_of_columns _ _ _ _ b).2, val_main_v74_apply, val_main_v71_apply, val_main_v73_apply, val_main_v70_apply, val_main_c_20_apply]
    exact PairIndex.wrap_of_nonneg _ _ (h0 b)

end Cert.ReferenceIdeal.RefValue

end
-- ==== Proof.RLogit.lean ====
/-
  The reference's logits, read at an index: entry (b, c) of the scaled array is the logit of row b at class c.

  The reference normalises the rows of the features and of the class weights, multiplies the normalised features by the
  transposed normalised weights (the cosines), forms the margin value of every cosine, gathers each row's margin value
  at its label, sets it into the cosines at (row, label), and scales by s.
-/
import proofs.«403486_j49091476193958_1_alg».proof.Proof.RPairs
import proofs.«403486_j49091476193958_1_alg».proof.Proof.Spec
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx ArcLoss

variable [Cert.ReferenceIdeal.Facts]

/-- max(‖row b of x‖, ε), as the reference holds it in column form. -/
theorem xnorm_apply (x0 : (⟨S512x512, .f32⟩ : BufTy).Contents (Elt Ideal)) (b : Fin 512) :
    val_main_v5 (F := Ideal) x0 (ix2 b 0) = nrm (fun k => x0 (ix2 b k)) := by
  rw [val_main_v5_apply, val_main_v3_apply, val_main_v2_apply, val_main_v1_apply, val_main_v4_apply,
    val_main_cst_0_apply, val_main_cst_apply]
  simp only [val_main_v0_apply, Ideal.mulf_def, Ideal.maximumf_def, Ideal.hostUnary_sqrt_def, Ideal.ofBits_def]
  rw [show Ideal.ofBits .f32 0x00000000#32 = (0 : EReal) from lit_zero, zero_add]
  unfold nrm
  refine congrArg (fun t => max (Ideal.sqrt t) _) (Finset.sum_congr rfl fun k _ => ?_)
  have e : idx_main_v1 (idx_main_v2 (ix2 b (0 : Fin 1))) k = ix2 b k :=
    funext fun a => Fin.ext (by match a with | ⟨0, _⟩ => rfl | ⟨1, _⟩ => rfl)
  rw [e]

/-- max(‖row c of w‖, ε), as the reference holds it in column form. -/
theorem wnorm_apply (x1 : (⟨S100000x512, .f32⟩ : BufTy).Contents (Elt Ideal)) (c : Fin 100000) :
    val_main_v13 (F := Ideal) x1 (ix2 c 0) = nrm (fun k => x1 (ix2 c k)) := by
  rw [val_main_v13_apply, val_main_v11_apply, val_main_v10_apply, val_main_v9_apply, val_main_v12_apply,
    val_main_cst_2_apply, val_main_cst_1_apply]
  simp only [val_main_v8_apply, Ideal.mulf_def, Ideal.maximumf_def, Ideal.hostUnary_sqrt_def, Ideal.ofBits_def]
  rw [show Ideal.ofBits .f32 0x00000000#32 = (0 : EReal) from lit_zero, zero_add]
  unfold nrm
  refine congrArg (fun t => max (Ideal.sqrt t) _) (Finset.sum_congr rfl fun k _ => ?_)
  have e : idx_main_v9 (idx_main_v10 (ix2 c (0 : Fin 1))) k = ix2 c k :=
    funext fun a => Fin.ext (by match a with | ⟨0, _⟩ => rfl | ⟨1, _⟩ => rfl)
  rw [e]

/-- The normalised features: entry (b, k) is x[b, k] / max(‖x b‖, ε). -/
theorem xhat_apply (x0 : (⟨S512x512, .f32⟩ : BufTy).Contents (Elt Ideal)) (b k : Fin 512) :
    val_main_v7 (F := Ideal) x0 (ix2 b k)
      = Ideal.div (x0 (ix2 b k)) (nrm (fun k => x0 (ix2 b k))) := by
  rw [val_main_v7_apply, val_main_v6_apply, Ideal.hostDivf_def]
  have e : idx_main_v6 (ix2 b k) = ix2 b (0 : Fin 1) :=
    funext fun a => Fin.ext (by match a with | ⟨0, _⟩ => rfl | ⟨1, _⟩ => rfl)
  rw [e, xnorm_apply]

/-- The transposed normalised weights: entry (k, c) is w[c, k] / max(‖w c‖, ε). -/
theorem what_apply (x1 : (⟨S100000x512, .f32⟩ : BufTy).Contents (Elt Ideal)) (k : Fin 512) (c : Fin 100000) :
    val_main_v16 (F := Ideal) x1 (ix2 k c)
      = Ideal.div (x1 (ix2 c k)) (nrm (fun k => x1 (ix2 c k))) := by
  rw [val_main_v16_apply]
  have e : idx_main_v16 (ix2 k c) = ix2 c k :=
    funext fun a => Fin.ext (by match a with | ⟨0, _⟩ => rfl | ⟨1, _⟩ => rfl)
  rw [e, val_main_v15_apply, val_main_v14_apply, Ideal.hostDivf_def]
  have e' : idx_main_v14 (ix2 c k) = ix2 c (0 : Fin 1) :=
    funext fun a => Fin.ext (by match a with | ⟨0, _⟩ => rfl | ⟨1, _⟩ => rfl)
  rw [e', wnorm_apply]

/-- The product of the normalised features and the transposed normalised weights holds the cosines. -/
theorem cos_apply (x0 : (⟨S512x512, .f32⟩ : BufTy).Contents (Elt Ideal)) (x1 : (⟨S100000x512, .f32⟩ : BufTy).Contents (Elt Ideal))
    (b : Fin 512) (c : Fin 100000) :
    val_main_v17 (F := Ideal) x0 x1 (ix2 b c)
      = cosAt (fun b k => x0 (ix2 b k)) (fun c k => x1 (ix2 c k)) b c := by
  rw [val_main_v17_apply]
  unfold cosAt
  refine Finset.sum_congr rfl fun k _ => ?_
  have el : lidx_main_v17 (ix2 b c) k = ix2 b k :=
    funext fun a => Fin.ext (by match a with | ⟨0, _⟩ => rfl | ⟨1, _⟩ => rfl)
  have er : ridx_main_v17 (ix2 b c) k = ix2 k c :=
    funext fun a => Fin.ext (by match a with | ⟨0, _⟩ => rfl | ⟨1, _⟩ => rfl)
  rw [el, er, xhat_apply, what_apply]

/-- The margin value of every cosine. -/
theorem margin_apply (x0 : (⟨S512x512, .f32⟩ : BufTy).Contents (Elt Ideal)) (x1 : (⟨S100000x512, .f32⟩ : BufTy).Contents (Elt Ideal))
    (i : S512x100000.Idx) :
    val_main_v32 (F := Ideal) x0 x1 i = margin (val_main_v17 (F := Ideal) x0 x1 i) := by
  simp only [val_main_v32_apply, val_main_v29_apply, val_main_v27_apply, val_main_v31_apply, val_main_v24_apply,
    val_main_v26_apply, val_main_v22_apply, val_main_v21_apply, val_main_call0_v2_apply, val_main_v20_apply,
    val_main_v18_apply, val_main_v28_apply, val_main_v23_apply, val_main_v25_apply, val_main_v30_apply,
    val_main_v19_apply, val_main_call0_v4_apply, val_main_call0_v1_apply, val_main_call0_v3_apply,
    val_main_call0_v0_apply, val_main_cst_3_apply, val_main_cst_4_apply, val_main_cst_5_apply, val_main_cst_6_apply,
    val_main_cst_7_apply, val_main_cst_8_apply, val_main_cst_9_apply]
  generalize val_main_v17 (F := Ideal) x0 x1 i = v
  simp only [Ideal.mulf_def, Ideal.subf_def, Ideal.maximumf_def, Ideal.minimumf_def, Ideal.hostUnary_sqrt_def,
    Ideal.ofBits_def]
  rw [show Ideal.ofBits .f32 0x00000000#32 = (0 : EReal) from lit_zero]
  rfl

/-- A word that is non-negative read signed is the same number read unsigned. -/
theorem toInt_eq_natCast_iff (x : BitVec 32) (h : 0 ≤ x.toInt) (n : Nat) : x.toInt = (n : Int) ↔ x.toNat = n := by
  have hx := x.isLt
  have e : x.toInt = (x.toNat : Int) := by
    rw [BitVec.toInt_eq_toNat_cond] at h ⊢
    split_ifs at h ⊢ with hlt
    · rfl
    · omega
  rw [e]
  exact Int.natCast_inj

/-- The gathered margin values: row b's is the margin value of its cosine at its label. -/
theorem gathered_apply (x0 : (⟨S512x512, .f32⟩ : BufTy).Contents (Elt Ideal)) (x1 : (⟨S100000x512, .f32⟩ : BufTy).Contents (Elt Ideal))
    (x2 : (⟨S512, .i32⟩ : BufTy).Contents (Elt Ideal)) (h0 : ∀ b : Fin 512, 0 ≤ (x2 (ix1 b)).toInt)
    (b : Fin 512) (c : Fin 100000) (hc : (x2 (ix1 b)).toInt = (c.val : Int)) :
    val_main_v47 (F := Ideal) x0 x1 x2 (ix1 b) = val_main_v32 (F := Ideal) x0 x1 (ix2 b c) := by
  obtain ⟨p0, p1⟩ := pairs46 x2 h0 b
  unfold val_main_v47
  exact PairIndex.pairGather_apply_inRange Facts₀.gather_S512x100000_S512x2_S512_n_01_n_n_01_1_11_wf
    (val_main_v32 (F := Ideal) x0 x1) (val_main_v46 (F := Ideal) x2) b b c p0 (by rw [p1]; exact hc)

/-- The scaled logits of the reference at (b, c), for labels that read signed lie in [0, 100000). -/
theorem logits_apply (x0 : (⟨S512x512, .f32⟩ : BufTy).Contents (Elt Ideal)) (x1 : (⟨S100000x512, .f32⟩ : BufTy).Contents (Elt Ideal))
    (x2 : (⟨S512, .i32⟩ : BufTy).Contents (Elt Ideal)) (h0 : ∀ b : Fin 512, 0 ≤ (x2 (ix1 b)).toInt)
    (h1 : ∀ b : Fin 512, (x2 (ix1 b)).toInt < 100000) (b : Fin 512) (c : Fin 100000) :
    val_main_v63 (F := Ideal) x0 x1 x2 (ix2 b c)
      = logit (fun b k => x0 (ix2 b k)) (fun c k => x1 (ix2 c k)) (fun b => x2 (ix1 b)) b c := by
  rw [val_main_v63_apply, val_main_v62_apply, val_main_cst_17_apply, Ideal.mulf_def, Ideal.ofBits_def]
  unfold logit
  refine congrArg (· * cS) ?_
  have hset : val_main_v61 (F := Ideal) x0 x1 x2 (ix2 b c)
      = if (val_main_v60 (F := Ideal) x2 (ix2 b 1)).toInt = (c.val : Int)
          then val_main_v47 (F := Ideal) x0 x1 x2 (ix1 b) else val_main_v17 (F := Ideal) x0 x1 (ix2 b c) := by
    unfold val_main_v61
    exact PairIndex.pairSet_apply Facts₀.scatter_S512x100000_S512x2_S512_n_01_01_1_wf
      (val_main_v17 (F := Ideal) x0 x1) (val_main_v60 (F := Ideal) x2) (val_main_v47 (F := Ideal) x0 x1 x2)
      (fun j => (pairs60 x2 h0 j).1) b c
  rw [hset, (pairs60 x2 h0 b).2]
  by_cases hc : (x2 (ix1 b)).toInt = (c.val : Int)
  · have hn : (x2 (ix1 b)).toNat = c.val := (toInt_eq_natCast_iff _ (h0 b) _).mp hc
    rw [if_pos hc, if_pos hn, gathered_apply x0 x1 x2 h0 b c hc, margin_apply, cos_apply]
  · have hn : ¬ (x2 (ix1 b)).toNat = c.val := fun e => hc ((toInt_eq_natCast_iff _ (h0 b) _).mpr e)
    rw [if_neg hc, if_neg hn, cos_apply]

end Cert.ReferenceIdeal.RefValue

end
-- ==== Proof.RLoss.lean ====
/-
  The reference's result from its logits: the batch mean of the whole-row losses.

  From the scaled logits Z the reference takes log-softmax along each row (subtract the row maximum, subtract the log of
  the row's sum of exponentials), gathers each row's value at its label, sums each row, and returns the mean over rows of
  −(1 − e)·lp(label) − (e / C)·Σ_c lp(c).
-/
import proofs.«403486_j49091476193958_1_alg».proof.Proof.RPairs
import proofs.«403486_j49091476193958_1_alg».proof.Proof.Spec
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx ArcLoss

variable [Cert.ReferenceIdeal.Facts]

open Idealize.ShloMosaic.PairIndex
open Cert.ReferenceIdeal.Facts₀ Cert.ReferenceIdeal.Facts

section rows

variable (x0 : (⟨S512x512, .f32⟩ : BufTy).Contents (Elt Ideal)) (x1 : (⟨S100000x512, .f32⟩ : BufTy).Contents (Elt Ideal))
  (x2 : (⟨S512, .i32⟩ : BufTy).Contents (Elt Ideal)) (b : Fin 512)

/-- The row maximum the log-softmax subtracts is the whole-row maximum of the logits of row `b`: the fold of `max` from
    the −∞ word, which denotes `⊥`, and `max ⊥ y = y`. -/
theorem rowmax_apply :
    val_main_call2_v2 (F := Ideal) x0 x1 x2 (ix1 b)
      = rowMax (fun c => val_main_v63 (F := Ideal) x0 x1 x2 (ix2 b c)) := by
  rw [val_main_call2_v2_apply, val_main_call2_v1_apply, val_main_call2_cst_0_apply]
  unfold val_main_call2_v0
  generalize val_main_v63 (F := Ideal) x0 x1 x2 = y
  have hred : S512x100000.Reduces [1] S512 := by decide
  have e := Host.reduce_eq_fold_single (max : EReal → EReal → EReal) y (val_main_call2_cst (F := Ideal))
    reducesTo_S512x100000_S512_d1 hred h_S_ (ix1 b)
  have hw : Ideal.ofBits .f32 0xFF800000#32 = (⊥ : EReal) := lit_negInf
  show max (Ideal.ofBits .f32 0xFF800000#32)
      (Host.reduce (max : EReal → EReal → EReal) y (val_main_call2_cst (F := Ideal))
        reducesTo_S512x100000_S512_d1 h_S_ (ix1 b)) = _
  rw [e, hw, max_eq_right bot_le]
  unfold rowMax
  show (Finset.univ : Finset (Fin 100000)).fold max (Ideal.ofBits .f32 0xFF800000#32) (y ∘ hred.lift (ix1 b)) = _
  rw [hw]
  exact Finset.fold_congr fun c _ => congrArg y (funext fun a => Fin.ext (by
    match a with
    | ⟨0, _⟩ => rfl
    | ⟨1, _⟩ => rfl))

/-- Row `b`'s logits less their maximum. -/
theorem shift_apply (c : Fin 100000) :
    val_main_call2_v5 (F := Ideal) x0 x1 x2 (ix2 b c)
      = val_main_v63 (F := Ideal) x0 x1 x2 (ix2 b c)
        - rowMax (fun c' => val_main_v63 (F := Ideal) x0 x1 x2 (ix2 b c')) := by
  have hi : idx_main_call2_v3 (idx_main_call2_v4 (ix2 b c)) = ix1 b :=
    funext fun a => Fin.ext (by
      match a with
      | ⟨0, _⟩ => rfl)
  rw [val_main_call2_v5_apply, val_main_call2_v4_apply, val_main_call2_v3_apply, hi, rowmax_apply, Ideal.subf_def]

/-- The logarithm of row `b`'s sum of exponentials (the sum starts from the zero word). -/
theorem logsum_apply (c : Fin 100000) :
    val_main_call2_v10 (F := Ideal) x0 x1 x2 (ix2 b c)
      = Ideal.log (∑ c' : Fin 100000, Ideal.exp (val_main_v63 (F := Ideal) x0 x1 x2 (ix2 b c')
          - rowMax (fun c'' => val_main_v63 (F := Ideal) x0 x1 x2 (ix2 b c'')))) := by
  have hi : idx_main_call2_v8 (idx_main_call2_v10 (ix2 b c)) = ix1 b :=
    funext fun a => Fin.ext (by
      match a with
      | ⟨0, _⟩ => rfl)
  have hz : Ideal.ofBits .f32 0x00000000#32 = (0 : EReal) := lit_zero
  rw [val_main_call2_v10_apply, val_main_call2_v9_apply, Ideal.hostUnary_log_def, val_main_call2_v8_apply, hi,
    val_main_call2_v7_apply, val_main_call2_cst_1_apply]
  refine congrArg Ideal.log ?_
  show Ideal.ofBits .f32 0x00000000#32
      + ∑ k : Fin 100000, val_main_call2_v6 (F := Ideal) x0 x1 x2 (idx_main_call2_v7 (ix1 b) k) = _
  rw [hz, zero_add]
  refine Finset.sum_congr rfl fun k _ => ?_
  have hk : idx_main_call2_v7 (ix1 b) k = ix2 b k :=
    funext fun a => Fin.ext (by
      match a with
      | ⟨0, _⟩ => rfl
      | ⟨1, _⟩ => rfl)
  rw [hk, val_main_call2_v6_apply, Ideal.hostUnary_exp_def, shift_apply]

/-- The log-softmax of row `b` at class `c`. -/
theorem lsm_apply (c : Fin 100000) :
    val_main_v64 (F := Ideal) x0 x1 x2 (ix2 b c)
      = (val_main_v63 (F := Ideal) x0 x1 x2 (ix2 b c)
          - rowMax (fun c' => val_main_v63 (F := Ideal) x0 x1 x2 (ix2 b c')))
        - Ideal.log (∑ c' : Fin 100000, Ideal.exp (val_main_v63 (F := Ideal) x0 x1 x2 (ix2 b c')
          - rowMax (fun c'' => val_main_v63 (F := Ideal) x0 x1 x2 (ix2 b c'')))) := by
  rw [val_main_v64_apply, shift_apply, logsum_apply, Ideal.subf_def]

/-- The gather at the pairs (row, label) reads row `b`'s log-softmax at its label. -/
theorem label_apply (h0 : ∀ b : Fin 512, 0 ≤ (x2 (ix1 b)).toInt) (h1 : ∀ b : Fin 512, (x2 (ix1 b)).toNat < 100000) :
    val_main_v78 (F := Ideal) x0 x1 x2 (ix1 b)
      = val_main_v64 (F := Ideal) x0 x1 x2 (ix2 b ⟨(x2 (ix1 b)).toNat, h1 b⟩) := by
  obtain ⟨hp0, hp1⟩ := pairs77 x2 h0 b
  unfold val_main_v78
  refine pairGather_apply_inRange gather_S512x100000_S512x2_S512_n_01_n_n_01_1_11_wf
    (val_main_v64 (F := Ideal) x0 x1 x2) (val_main_v77 (F := Ideal) x2) b b ⟨(x2 (ix1 b)).toNat, h1 b⟩ hp0 ?_
  rw [hp1]
  exact BitVec.toInt_eq_toNat_of_lt (by have := h1 b; omega)

/-- The sum of row `b`'s log-softmax over the classes (from the zero word). -/
theorem rowsum_apply :
    val_main_v81 (F := Ideal) x0 x1 x2 (ix1 b) = ∑ c : Fin 100000, val_main_v64 (F := Ideal) x0 x1 x2 (ix2 b c) := by
  have hz : Ideal.ofBits .f32 0x00000000#32 = (0 : EReal) := lit_zero
  rw [val_main_v81_apply, val_main_cst_23_apply]
  show Ideal.ofBits .f32 0x00000000#32
      + ∑ k : Fin 100000, val_main_v64 (F := Ideal) x0 x1 x2 (idx_main_v81 (ix1 b) k) = _
  rw [hz, zero_add]
  exact Finset.sum_congr rfl fun k _ => congrArg _ (funext fun a => Fin.ext (by
    match a with
    | ⟨0, _⟩ => rfl
    | ⟨1, _⟩ => rfl))

/-- Row `b`'s loss is the whole-row loss of its logits at its label. -/
theorem rowloss_apply (h0 : ∀ b : Fin 512, 0 ≤ (x2 (ix1 b)).toInt) (h1 : ∀ b : Fin 512, (x2 (ix1 b)).toNat < 100000) :
    val_main_v84 (F := Ideal) x0 x1 x2 (ix1 b)
      = refRowLoss (fun c => val_main_v63 (F := Ideal) x0 x1 x2 (ix2 b c)) ⟨(x2 (ix1 b)).toNat, h1 b⟩ := by
  rw [val_main_v84_apply, val_main_v80_apply, val_main_v83_apply, val_main_v79_apply, val_main_v82_apply,
    val_main_cst_22_apply, val_main_cst_24_apply, label_apply x0 x1 x2 b h0 h1, rowsum_apply, lsm_apply,
    Finset.sum_congr rfl (fun c _ => lsm_apply x0 x1 x2 b c), Ideal.subf_def, Ideal.mulf_def, Ideal.mulf_def]
  rfl

end rows

/-- The reference's result is the batch mean of the whole-row losses of its logit rows, for labels that read signed lie
    in [0, 100000). -/
theorem loss_eq (x0 : (⟨S512x512, .f32⟩ : BufTy).Contents (Elt Ideal)) (x1 : (⟨S100000x512, .f32⟩ : BufTy).Contents (Elt Ideal))
    (x2 : (⟨S512, .i32⟩ : BufTy).Contents (Elt Ideal)) (h0 : ∀ b : Fin 512, 0 ≤ (x2 (ix1 b)).toInt)
    (h1 : ∀ b : Fin 512, (x2 (ix1 b)).toNat < 100000) :
    val_main_v86 (F := Ideal) x0 x1 x2
      = fun _ => batchMean (fun b => refRowLoss (fun c => val_main_v63 (F := Ideal) x0 x1 x2 (ix2 b c)) ⟨(x2 (ix1 b)).toNat, h1 b⟩) := by
  funext i
  have hz : Ideal.ofBits .f32 0x00000000#32 = (0 : EReal) := lit_zero
  have hs : ∑ j : S512.Idx, val_main_v84 (F := Ideal) x0 x1 x2 j
      = ∑ b : Fin 512, val_main_v84 (F := Ideal) x0 x1 x2 (ix1 b) :=
    Fintype.sum_equiv ⟨fun j => j 0, ix1, fun j => (eq_ix1 j).symm, fun _ => rfl⟩ _ _
      fun j => congrArg _ (eq_ix1 j)
  rw [val_main_v86_apply, Ideal.hostDivf_def, val_main_v85_apply, val_main_cst_25_apply, val_main_cst_26_apply]
  unfold batchMean
  refine congrArg₂ Ideal.div ?_ rfl
  show Ideal.ofBits .f32 0x00000000#32 + ∑ j : S512.Idx, val_main_v84 (F := Ideal) x0 x1 x2 j = _
  rw [hz, zero_add, hs]
  exact Finset.sum_congr rfl fun b _ => rowloss_apply x0 x1 x2 b h0 h1

end Cert.ReferenceIdeal.RefValue

end
-- ==== Proof.LibERealSums.lean ====
/-
  SUMS OF EXTENDED REALS ALL OF WHOSE TERMS ARE REAL. On the extended reals subtraction does not undo addition
  (`⊤ - ⊤ = ⊥`), so the usual laws of finite sums with differences hold only away from the infinities. Here a value
  is called REAL when it is the image of a real number; real values are closed under the arithmetic operations and
  finite sums, the inclusion of the reals commutes with finite sums, and between real values the laws of an
  additive group hold again.
-/
import Mathlib.Data.EReal.Basic
import Mathlib.Data.EReal.Operations
import Mathlib.Algebra.BigOperators.Group.Finset.Basic

namespace ERealSums

/-- An extended real is REAL when it is (the image of) a real number: neither `⊤` nor `⊥`. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- A real value is the image of its real part. -/
theorem IsReal.coe_toReal {x : EReal} (hx : IsReal x) : ((x.toReal : ℝ) : EReal) = x := by
  obtain ⟨r, rfl⟩ := hx
  rw [EReal.toReal_coe]

/-- A real value is not `⊤`. -/
theorem IsReal.ne_top {x : EReal} (hx : IsReal x) : x ≠ ⊤ := by
  obtain ⟨r, rfl⟩ := hx
  exact EReal.coe_ne_top r

/-- A real value is not `⊥`. -/
theorem IsReal.ne_bot {x : EReal} (hx : IsReal x) : x ≠ ⊥ := by
  obtain ⟨r, rfl⟩ := hx
  exact EReal.coe_ne_bot r

/-- A value that is neither `⊤` nor `⊥` is real. -/
theorem isReal_of_ne {x : EReal} (htop : x ≠ ⊤) (hbot : x ≠ ⊥) : IsReal x :=
  ⟨x.toReal, (EReal.coe_toReal htop hbot).symm⟩

/-- The sum of two real values is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The difference of two real values is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The product of two real values is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negative of a real value is real. -/
theorem isReal_neg {x : EReal} (hx : IsReal x) : IsReal (-x) := by
  obtain ⟨a, rfl⟩ := hx
  exact ⟨-a, (EReal.coe_neg a).symm⟩

/-- A value chosen by a condition between two real values is real. -/
theorem isReal_ite {p : Prop} [Decidable p] {x y : EReal} (hx : IsReal x) (hy : IsReal y) :
    IsReal (if p then x else y) := by
  split
  · exact hx
  · exact hy

/-- The inclusion of the reals into the extended reals commutes with finite sums. -/
theorem coe_sum {ι : Type*} (s : Finset ι) (f : ι → ℝ) :
    ((∑ i ∈ s, f i : ℝ) : EReal) = ∑ i ∈ s, (f i : EReal) := by
  induction s using Finset.cons_induction with
  | empty => rw [Finset.sum_empty, Finset.sum_empty, EReal.coe_zero]
  | cons a s ha ih => rw [Finset.sum_cons, Finset.sum_cons, EReal.coe_add, ih]

/-- A finite sum of real values is real. -/
theorem isReal_sum {ι : Type*} (s : Finset ι) (f : ι → EReal) (h : ∀ i ∈ s, IsReal (f i)) :
    IsReal (∑ i ∈ s, f i) := by
  induction s using Finset.cons_induction with
  | empty =>
    rw [Finset.sum_empty]
    exact isReal_zero
  | cons a s ha ih =>
    rw [Finset.sum_cons]
    exact isReal_add (h a (Finset.mem_cons_self a s)) (ih fun i hi => h i (Finset.mem_cons_of_mem hi))

/-- A finite sum of real values is the image of the sum of their real parts. -/
theorem sum_eq_coe_sum_toReal {ι : Type*} (s : Finset ι) (f : ι → EReal) (h : ∀ i ∈ s, IsReal (f i)) :
    ∑ i ∈ s, f i = ((∑ i ∈ s, (f i).toReal : ℝ) : EReal) := by
  rw [coe_sum]
  exact Finset.sum_congr rfl fun i hi => (h i hi).coe_toReal.symm

/-- A finite sum of differences of real values is the difference of the sums. -/
theorem sum_sub_distrib {ι : Type*} (s : Finset ι) (f g : ι → EReal) (hf : ∀ i ∈ s, IsReal (f i))
    (hg : ∀ i ∈ s, IsReal (g i)) : ∑ i ∈ s, (f i - g i) = ∑ i ∈ s, f i - ∑ i ∈ s, g i := by
  induction s using Finset.cons_induction with
  | empty => rw [Finset.sum_empty, Finset.sum_empty, Finset.sum_empty, sub_zero]
  | cons a s ha ih =>
    have hf' : ∀ i ∈ s, IsReal (f i) := fun i hi => hf i (Finset.mem_cons_of_mem hi)
    have hg' : ∀ i ∈ s, IsReal (g i) := fun i hi => hg i (Finset.mem_cons_of_mem hi)
    rw [Finset.sum_cons, Finset.sum_cons, Finset.sum_cons, ih hf' hg']
    obtain ⟨p, hp⟩ := hf a (Finset.mem_cons_self a s)
    obtain ⟨q, hq⟩ := hg a (Finset.mem_cons_self a s)
    obtain ⟨P, hP⟩ := isReal_sum s f hf'
    obtain ⟨Q, hQ⟩ := isReal_sum s g hg'
    rw [hp, hq, hP, hQ, ← EReal.coe_sub, ← EReal.coe_sub, ← EReal.coe_add, ← EReal.coe_add, ← EReal.coe_add,
      ← EReal.coe_sub, add_sub_add_comm]

/-- Between real values a subtraction and an addition may be exchanged. -/
theorem add_sub_assoc_real {a b c : EReal} (ha : IsReal a) (hb : IsReal b) (hc : IsReal c) :
    a - b + c = (a + c) - b := by
  obtain ⟨p, rfl⟩ := ha
  obtain ⟨q, rfl⟩ := hb
  obtain ⟨r, rfl⟩ := hc
  rw [← EReal.coe_sub, ← EReal.coe_add, ← EReal.coe_add, ← EReal.coe_sub, sub_add_eq_add_sub]

/-- A real value minus itself is zero. -/
theorem sub_self_real {a : EReal} (ha : IsReal a) : a - a = 0 := by
  obtain ⟨p, rfl⟩ := ha
  rw [← EReal.coe_sub, sub_self, EReal.coe_zero]

/-- Adding a real value and subtracting it again changes nothing (the other value may be infinite). -/
theorem add_sub_cancel_real {a b : EReal} (hb : IsReal b) : a + b - b = a := by
  obtain ⟨q, rfl⟩ := hb
  induction a using EReal.rec with
  | bot => rfl
  | coe p => rw [← EReal.coe_add, ← EReal.coe_sub, add_sub_cancel_right]
  | top => rfl

/-- Subtracting a real value and adding it again changes nothing (the other value may be infinite). -/
theorem sub_add_cancel_real {a b : EReal} (hb : IsReal b) : a - b + b = a := by
  obtain ⟨q, rfl⟩ := hb
  induction a using EReal.rec with
  | bot => rfl
  | coe p => rw [← EReal.coe_sub, ← EReal.coe_add, sub_add_cancel]
  | top => rfl

end ERealSums
-- ==== Proof.OnlineSoftmax.lean ====
/-
  The one-pass (online) form of the label-smoothed log-softmax loss of a row equals the whole-row form, for a row of
  real logits.
-/
import proofs.«403486_j49091476193958_1_alg».proof.Proof.Spec
import proofs.«403486_j49091476193958_1_alg».proof.Proof.LibERealSums
import Mathlib.Analysis.SpecialFunctions.Log.Basic

noncomputable section

open scoped BigOperators

namespace ArcLoss

open Idealize.ShloMosaic ERealSums

/-! ## The number of classes -/

/-- The word carried for the number of classes denotes 100000: (2²³ + 4411392) · 2⁻⁷. -/
theorem cC_eq : cC = ((100000 : ℝ) : EReal) := by
  simp [cC, lit, Ideal.ofBits, Ideal.ieee]
  rw [← EReal.coe_mul]
  norm_num

/-! ## A maximum taken from −∞ over a nonempty finite family is attained -/

/-- Folding `max` from `⊥` over a nonempty finite family gives a member of the family that bounds every member. -/
theorem fold_max_attained {ι : Type*} (s : Finset ι) (hs : s.Nonempty) (f : ι → EReal) :
    (∃ i ∈ s, s.fold max ⊥ f = f i) ∧ ∀ i ∈ s, f i ≤ s.fold max ⊥ f := by
  have h : s.fold max ⊥ f = s.sup f := rfl
  rw [h]
  refine ⟨?_, fun i hi => Finset.le_sup hi⟩
  obtain ⟨i, hi, he⟩ := Finset.exists_mem_eq_sup s hs f
  exact ⟨i, hi, he⟩

/-! ## The blocks partition the row -/

/-- The classes of block `t`. -/
def blockSet (t : Fin 100) : Finset (Fin 100000) := Finset.univ.image (blk t)

theorem blk_injective (t : Fin 100) : Function.Injective (blk t) := by
  intro j j' h
  have h' := congrArg Fin.val h
  simp only [blk] at h'
  exact Fin.ext (by omega)

/-- Block `t` is the classes `1000 t ≤ c < 1000 t + 1000`. -/
theorem mem_blockSet (t : Fin 100) (c : Fin 100000) :
    c ∈ blockSet t ↔ t.val * 1000 ≤ c.val ∧ c.val < t.val * 1000 + 1000 := by
  constructor
  · intro h
    obtain ⟨j, -, rfl⟩ := Finset.mem_image.mp h
    have := j.isLt
    simp only [blk]
    omega
  · rintro ⟨h1, h2⟩
    refine Finset.mem_image.mpr ⟨⟨c.val - t.val * 1000, by omega⟩, Finset.mem_univ _, ?_⟩
    apply Fin.ext
    simp only [blk]
    omega

/-- A sum over the positions of a block is a sum over the block's classes. -/
theorem sum_block {M : Type*} [AddCommMonoid M] (t : Fin 100) (f : Fin 100000 → M) :
    ∑ j : Fin 1000, f (blk t j) = ∑ c ∈ blockSet t, f c := by
  rw [blockSet, Finset.sum_image (fun a _ b _ h => blk_injective t h)]

/-- The classes of blocks `0 … n`. -/
def seen (n : ℕ) : Finset (Fin 100000) := Finset.univ.filter (fun c => c.val < (n + 1) * 1000)

theorem mem_seen (n : ℕ) (c : Fin 100000) : c ∈ seen n ↔ c.val < (n + 1) * 1000 := by
  simp [seen]

theorem seen_zero (h : 0 < 100) : seen 0 = blockSet ⟨0, h⟩ := by
  ext c
  rw [mem_seen, mem_blockSet]
  simp only []
  omega

theorem seen_succ (n : ℕ) (h : n + 1 < 100) : seen (n + 1) = seen n ∪ blockSet ⟨n + 1, h⟩ := by
  ext c
  rw [Finset.mem_union, mem_seen, mem_seen, mem_blockSet]
  simp only []
  omega

theorem seen_disjoint (n : ℕ) (h : n + 1 < 100) : Disjoint (seen n) (blockSet ⟨n + 1, h⟩) := by
  rw [Finset.disjoint_left]
  intro c hc hb
  rw [mem_seen] at hc
  rw [mem_blockSet] at hb
  simp only [] at hb
  omega

theorem seen_last : seen 99 = Finset.univ := by
  ext c
  have := c.isLt
  simp only [mem_seen, Finset.mem_univ, iff_true]
  omega

/-! ## What the pass has computed after a set of classes -/

section pass

variable {z : Fin 100000 → EReal} {r : Fin 100000 → ℝ}

/-- The maximum of a block of real logits is a real number, attained in the block and bounding the block. -/
theorem bmax_real (hr : ∀ c, z c = (r c : EReal)) (t : Fin 100) :
    ∃ B : ℝ, bmax z t = (B : EReal) ∧ (∀ c ∈ blockSet t, r c ≤ B) ∧ ∃ c ∈ blockSet t, r c = B := by
  obtain ⟨⟨j₀, -, h₀⟩, hle⟩ :=
    fold_max_attained (Finset.univ : Finset (Fin 1000)) Finset.univ_nonempty (fun j => z (blk t j))
  have hb : bmax z t = (r (blk t j₀) : EReal) := by rw [← hr]; exact h₀
  refine ⟨r (blk t j₀), hb, ?_, blk t j₀, Finset.mem_image_of_mem _ (Finset.mem_univ _), rfl⟩
  intro c hc
  obtain ⟨j, -, rfl⟩ := Finset.mem_image.mp hc
  have h := hle j (Finset.mem_univ _)
  change z (blk t j) ≤ bmax z t at h
  rw [hb, hr] at h
  exact EReal.coe_le_coe_iff.mp h

/-- The state of the pass once exactly the classes `s` have been read: the running maximum is the real maximum
    `M` of the logits over `s`, and the other three are the sums over `s` of `exp (r c − M)`, of `r c`, and of
    `r c` at the label. -/
def Good (r : Fin 100000 → ℝ) (ℓ : BitVec 32) (s : Finset (Fin 100000)) (a : Acc) : Prop :=
  ∃ M : ℝ, a.m = (M : EReal) ∧ (∀ c ∈ s, r c ≤ M) ∧ (∃ c ∈ s, r c = M) ∧
    a.l = ((∑ c ∈ s, Real.exp (r c - M) : ℝ) : EReal) ∧
    a.so = ((∑ c ∈ s, r c : ℝ) : EReal) ∧
    a.tg = ((∑ c ∈ s, (if ℓ.toNat = c.val then r c else 0) : ℝ) : EReal)

/-- The exponentials of a block against a real maximum, summed. -/
theorem sum_exp_block (hr : ∀ c, z c = (r c : EReal)) (t : Fin 100) (M : ℝ) :
    ∑ j : Fin 1000, Ideal.exp (z (blk t j) - (M : EReal))
      = ((∑ c ∈ blockSet t, Real.exp (r c - M) : ℝ) : EReal) := by
  rw [sum_block t (fun c => Ideal.exp (z c - (M : EReal))), coe_sum]
  refine Finset.sum_congr rfl fun c _ => ?_
  rw [hr c, ← EReal.coe_sub, Ideal.exp_coe]

/-- The logits of a block, summed. -/
theorem sum_logit_block (hr : ∀ c, z c = (r c : EReal)) (t : Fin 100) :
    ∑ j : Fin 1000, z (blk t j) = ((∑ c ∈ blockSet t, r c : ℝ) : EReal) := by
  rw [sum_block t z, coe_sum]
  exact Finset.sum_congr rfl fun c _ => hr c

/-- The label's logit within a block, as a sum. -/
theorem sum_label_block (hr : ∀ c, z c = (r c : EReal)) (ℓ : BitVec 32) (t : Fin 100) :
    ∑ j : Fin 1000, (if ℓ.toNat = (blk t j).val then z (blk t j) else 0)
      = ((∑ c ∈ blockSet t, (if ℓ.toNat = c.val then r c else 0) : ℝ) : EReal) := by
  rw [sum_block t (fun c => if ℓ.toNat = c.val then z c else 0), coe_sum]
  refine Finset.sum_congr rfl fun c _ => ?_
  split
  · exact hr c
  · exact EReal.coe_zero.symm

/-- The first block, from the empty state: `⊥ − m = ⊥`, `exp ⊥ = 0`, and nothing is carried over. -/
theorem good_first (hr : ∀ c, z c = (r c : EReal)) (ℓ : BitVec 32) (t : Fin 100) :
    Good r ℓ (blockSet t) (step z ℓ t Acc.init) := by
  obtain ⟨B, hB, hle, hatt⟩ := bmax_real hr t
  have hm : max (⊥ : EReal) (bmax z t) = (B : EReal) := by rw [hB]; exact max_eq_right bot_le
  refine ⟨B, hm, hle, hatt, ?_, ?_, ?_⟩
  · change (0 : EReal) * Ideal.exp (⊥ - max ⊥ (bmax z t))
        + ∑ j : Fin 1000, Ideal.exp (z (blk t j) - max ⊥ (bmax z t)) = _
    rw [hm, EReal.bot_sub, Ideal.exp_bot, mul_zero, zero_add, sum_exp_block hr]
  · change (0 : EReal) + ∑ j : Fin 1000, z (blk t j) = _
    rw [zero_add, sum_logit_block hr]
  · change (0 : EReal) + ∑ j : Fin 1000, (if ℓ.toNat = (blk t j).val then z (blk t j) else 0) = _
    rw [zero_add, sum_label_block hr]

/-- A further block: with `M' = max M B`, the carried sum of `exp (r c − M)` times `exp (M − M')` is the sum of
    `exp (r c − M')` (the exponential of a sum is the product of the exponentials). -/
theorem good_next (hr : ∀ c, z c = (r c : EReal)) (ℓ : BitVec 32) (t : Fin 100) (s : Finset (Fin 100000))
    (hd : Disjoint s (blockSet t)) (a : Acc) (ha : Good r ℓ s a) :
    Good r ℓ (s ∪ blockSet t) (step z ℓ t a) := by
  obtain ⟨M, hm, hle, ⟨c₀, hc₀, hc₀M⟩, hl, hso, htg⟩ := ha
  obtain ⟨B, hB, hBle, ⟨c₁, hc₁, hc₁B⟩⟩ := bmax_real hr t
  have hmax : max a.m (bmax z t) = ((max M B : ℝ) : EReal) := by
    rw [hm, hB]
    exact (EReal.coe_strictMono.monotone.map_max).symm
  refine ⟨max M B, hmax, ?_, ?_, ?_, ?_, ?_⟩
  · intro c hc
    rcases Finset.mem_union.mp hc with h | h
    · exact le_max_of_le_left (hle c h)
    · exact le_max_of_le_right (hBle c h)
  · rcases le_total M B with h | h
    · exact ⟨c₁, Finset.mem_union_right _ hc₁, by rw [hc₁B, max_eq_right h]⟩
    · exact ⟨c₀, Finset.mem_union_left _ hc₀, by rw [hc₀M, max_eq_left h]⟩
  · change a.l * Ideal.exp (a.m - max a.m (bmax z t))
        + ∑ j : Fin 1000, Ideal.exp (z (blk t j) - max a.m (bmax z t)) = _
    rw [hmax, hm, hl, ← EReal.coe_sub, Ideal.exp_coe, ← EReal.coe_mul, sum_exp_block hr, ← EReal.coe_add,
      Finset.sum_union hd, Finset.sum_mul]
    congr 2
    refine Finset.sum_congr rfl fun c _ => ?_
    rw [← Real.exp_add]
    congr 1
    ring
  · change a.so + ∑ j : Fin 1000, z (blk t j) = _
    rw [hso, sum_logit_block hr, ← EReal.coe_add, Finset.sum_union hd]
  · change a.tg + ∑ j : Fin 1000, (if ℓ.toNat = (blk t j).val then z (blk t j) else 0) = _
    rw [htg, sum_label_block hr, ← EReal.coe_add, Finset.sum_union hd]

/-- After blocks `0 … n` the pass holds the quantities of the classes of those blocks. -/
theorem good_accAt (hr : ∀ c, z c = (r c : EReal)) (ℓ : BitVec 32) :
    ∀ (n : ℕ) (h : n < 100), Good r ℓ (seen n) (accAt z ℓ n h)
  | 0, h => by
    rw [seen_zero h]
    exact good_first hr ℓ ⟨0, h⟩
  | n + 1, h => by
    rw [seen_succ n h]
    exact good_next hr ℓ ⟨n + 1, h⟩ (seen n) (seen_disjoint n h) _ (good_accAt hr ℓ n (Nat.lt_of_succ_lt h))

/-- The whole row's maximum is the real maximum of the logits. -/
theorem rowMax_real (hr : ∀ c, z c = (r c : EReal)) (M : ℝ) (hle : ∀ c, r c ≤ M) (hatt : ∃ c, r c = M) :
    rowMax z = (M : EReal) := by
  obtain ⟨⟨c₁, -, h₁⟩, hub⟩ :=
    fold_max_attained (Finset.univ : Finset (Fin 100000)) Finset.univ_nonempty z
  obtain ⟨c₀, hc₀⟩ := hatt
  apply le_antisymm
  · change Finset.fold max ⊥ z Finset.univ ≤ _
    rw [h₁, hr]
    exact EReal.coe_le_coe_iff.mpr (hle c₁)
  · rw [← hc₀, ← hr]
    exact hub c₀ (Finset.mem_univ _)

/-- Exactly one class is the label, so the label sum is the label's logit. -/
theorem sum_label_univ (r : Fin 100000 → ℝ) (ℓ : BitVec 32) (hℓ : ℓ.toNat < 100000) :
    (∑ c : Fin 100000, (if ℓ.toNat = c.val then r c else 0)) = r ⟨ℓ.toNat, hℓ⟩ := by
  rw [Finset.sum_eq_single (⟨ℓ.toNat, hℓ⟩ : Fin 100000)]
  · rw [if_pos rfl]
  · intro c _ hc
    rw [if_neg]
    intro h
    exact hc (Fin.ext h.symm)
  · intro h
    exact absurd (Finset.mem_univ _) h

/-- Once the whole row has been read, the closing formula is the whole-row loss: the running maximum is the row's
    maximum, the rescaled sum is the row's sum of exponentials (positive, so its logarithm is a real logarithm), and
    `Σ_c ((r c − M) − L) = Σ_c r c − C·M − C·L` with `C` the number of classes. -/
theorem finish_eq (hr : ∀ c, z c = (r c : EReal)) (ℓ : BitVec 32) (hℓ : ℓ.toNat < 100000) (a : Acc)
    (ha : Good r ℓ Finset.univ a) : finish a = refRowLoss z ⟨ℓ.toNat, hℓ⟩ := by
  obtain ⟨M, hm, hle, ⟨c₀, -, hc₀⟩, hl, hso, htg⟩ := ha
  have hRM : rowMax z = (M : EReal) := rowMax_real hr M (fun c => hle c (Finset.mem_univ _)) ⟨c₀, hc₀⟩
  have hpos : 0 < ∑ c : Fin 100000, Real.exp (r c - M) :=
    Finset.sum_pos (fun c _ => Real.exp_pos _) Finset.univ_nonempty
  obtain ⟨L, hlog⟩ : ∃ L : ℝ, Ideal.log ((∑ c : Fin 100000, Real.exp (r c - M) : ℝ) : EReal) = (L : EReal) :=
    ⟨_, by rw [Ideal.log_coe, if_neg (not_le.mpr hpos)]⟩
  have hsumexp : ∑ c : Fin 100000, Ideal.exp (z c - (M : EReal))
      = ((∑ c : Fin 100000, Real.exp (r c - M) : ℝ) : EReal) := by
    rw [coe_sum]
    refine Finset.sum_congr rfl fun c _ => ?_
    rw [hr c, ← EReal.coe_sub, Ideal.exp_coe]
  have hsum : ∑ c : Fin 100000, ((z c - (M : EReal)) - (L : EReal))
      = (((∑ c : Fin 100000, r c) - 100000 * M - 100000 * L : ℝ) : EReal) := by
    have hterm : ∀ c : Fin 100000, (z c - (M : EReal)) - (L : EReal) = ((r c - M - L : ℝ) : EReal) := by
      intro c
      rw [hr c, ← EReal.coe_sub, ← EReal.coe_sub]
    have hreal : (∑ c : Fin 100000, (r c - M - L)) = (∑ c : Fin 100000, r c) - 100000 * M - 100000 * L := by
      rw [Finset.sum_sub_distrib, Finset.sum_sub_distrib, Finset.sum_const, Finset.sum_const, Finset.card_univ,
        Fintype.card_fin, nsmul_eq_mul, nsmul_eq_mul, Nat.cast_ofNat]
    rw [Finset.sum_congr rfl (fun c _ => hterm c), ← coe_sum, hreal]
  have hY : (((∑ c : Fin 100000, r c : ℝ) : EReal) - ((100000 : ℝ) : EReal) * (M : EReal))
        - ((100000 : ℝ) : EReal) * (L : EReal)
      = (((∑ c : Fin 100000, r c) - 100000 * M - 100000 * L : ℝ) : EReal) := by
    rw [← EReal.coe_mul, ← EReal.coe_mul, ← EReal.coe_sub, ← EReal.coe_sub]
  unfold finish refRowLoss
  rw [hRM, hsumexp, hlog, hsum, hm, hl, hlog, hso, htg, sum_label_univ r ℓ hℓ, cC_eq, hY, hr ⟨ℓ.toNat, hℓ⟩]

end pass

/-- For a row of real logits and a label inside the row, the one-pass loss is the whole-row loss. -/
theorem onlineRowLoss_eq (z : Fin 100000 → EReal) (ℓ : BitVec 32) (hℓ : ℓ.toNat < 100000) (hz : ∀ c, IsReal (z c)) :
    onlineRowLoss z ℓ = refRowLoss z ⟨ℓ.toNat, hℓ⟩ := by
  choose r hr using hz
  have h := good_accAt hr ℓ 99 (by decide)
  rw [seen_last] at h
  exact finish_eq hr ℓ hℓ _ h

end ArcLoss

end
-- ==== Proof.LogitReal.lean ====
/-
  Every logit of real inputs is a real number.
-/
import proofs.«403486_j49091476193958_1_alg».proof.Proof.Spec
import proofs.«403486_j49091476193958_1_alg».proof.Proof.LibERealSums

noncomputable section

open scoped BigOperators

namespace ArcLoss

open Idealize.ShloMosaic ERealSums

/-! ## Words that denote real numbers -/

/-- A word whose exponent field is not all ones denotes a real number. -/
theorem ieee_isReal (e m : ℕ) {n : ℕ} (b : BitVec n) (h : (b.extractLsb' m e).toNat ≠ 2 ^ e - 1) :
    IsReal (Ideal.ieee e m b) := by
  unfold Ideal.ieee
  simp only []
  rw [if_neg h]
  split
  · exact isReal_coe _
  · exact isReal_coe _

/-- A word with clear sign bit whose exponent field is neither zero nor all ones denotes a positive real. -/
theorem ieee_pos (e m : ℕ) {n : ℕ} (b : BitVec n) (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  unfold Ideal.ieee
  simp only []
  rw [if_neg h1, if_neg h0, hs]
  refine ⟨_, ?_, rfl⟩
  simp only [Bool.false_eq_true, if_false, one_mul]
  positivity

/-- ε is a positive real. -/
theorem cEps_pos : ∃ r : ℝ, 0 < r ∧ cEps = (r : EReal) :=
  ieee_pos 8 23 (0x2B8CBCCC#32) (by decide) (by decide) (by decide)

/-- The word of one is a positive real. -/
theorem cOne_pos : ∃ r : ℝ, 0 < r ∧ cOne = (r : EReal) :=
  ieee_pos 8 23 (0x3F800000#32) (by decide) (by decide) (by decide)

theorem cOne_isReal : IsReal cOne := ieee_isReal 8 23 (0x3F800000#32) (by decide)
theorem cCos_isReal : IsReal cCos := ieee_isReal 8 23 (0x3F60A940#32) (by decide)
theorem cSin_isReal : IsReal cSin := ieee_isReal 8 23 (0x3EF57744#32) (by decide)
theorem cMm_isReal : IsReal cMm := ieee_isReal 8 23 (0x3E757744#32) (by decide)
theorem cS_isReal : IsReal cS := ieee_isReal 8 23 (0x41F00000#32) (by decide)

/-! ## Maxima, minima and square roots of real values -/

theorem isReal_max {a b : EReal} (ha : IsReal a) (hb : IsReal b) : IsReal (max a b) := by
  rw [max_def]
  exact isReal_ite hb ha

theorem isReal_min {a b : EReal} (ha : IsReal a) (hb : IsReal b) : IsReal (min a b) := by
  rw [min_def]
  exact isReal_ite ha hb

/-- The square root of a real value that is not negative is real. -/
theorem isReal_sqrt {a : EReal} (ha : IsReal a) (h0 : 0 ≤ a) : IsReal (Ideal.sqrt a) := by
  obtain ⟨r, rfl⟩ := ha
  have hr : 0 ≤ r := by exact_mod_cast h0
  rw [Ideal.sqrt_coe, if_neg (not_lt.mpr hr)]
  exact isReal_coe _

/-! ## The norm of a real row is a positive real -/

theorem nrm_pos {K : ℕ} (v : Fin K → EReal) (hv : ∀ k, IsReal (v k)) :
    ∃ r : ℝ, 0 < r ∧ nrm v = (r : EReal) := by
  choose f hf using hv
  obtain ⟨ε, hε, hεe⟩ := cEps_pos
  have hsum : ∑ k : Fin K, v k * v k = ((∑ k : Fin K, f k * f k : ℝ) : EReal) := by
    rw [coe_sum]
    exact Finset.sum_congr rfl fun k _ => by rw [hf k, EReal.coe_mul]
  have hnn : 0 ≤ ∑ k : Fin K, f k * f k := Finset.sum_nonneg fun k _ => mul_self_nonneg (f k)
  unfold nrm
  rw [hsum, Ideal.sqrt_coe, if_neg (not_lt.mpr hnn), hεe, max_def]
  split
  · exact ⟨ε, hε, rfl⟩
  · rename_i h
    refine ⟨_, ?_, rfl⟩
    have : ε < Real.sqrt (∑ k : Fin K, f k * f k) := by
      have := not_le.mp h
      exact_mod_cast this
    exact lt_trans hε this

/-- A real value divided by the norm of a real row is real. -/
theorem isReal_div_nrm {K : ℕ} (a : EReal) (ha : IsReal a) (v : Fin K → EReal) (hv : ∀ k, IsReal (v k)) :
    IsReal (Ideal.div a (nrm v)) := by
  obtain ⟨r, hr, hre⟩ := nrm_pos v hv
  rw [hre, Ideal.div_coe (ne_of_gt hr)]
  exact isReal_mul ha (isReal_coe _)

/-! ## Cosine, margin value, logit -/

theorem cosAt_isReal (x : Fin 512 → Fin 512 → EReal) (w : Fin 100000 → Fin 512 → EReal)
    (hx : ∀ b k, IsReal (x b k)) (hw : ∀ c k, IsReal (w c k)) (b : Fin 512) (c : Fin 100000) :
    IsReal (cosAt x w b c) := by
  unfold cosAt
  exact isReal_sum _ _ fun k _ =>
    isReal_mul (isReal_div_nrm _ (hx b k) _ (hx b)) (isReal_div_nrm _ (hw c k) _ (hw c))

theorem margin_isReal (v : EReal) (hv : IsReal v) : IsReal (margin v) := by
  unfold margin Scalar.select
  refine isReal_ite ?_ (isReal_sub hv cMm_isReal)
  refine isReal_sub (isReal_mul hv cCos_isReal) (isReal_mul ?_ cSin_isReal)
  refine isReal_sqrt (isReal_min cOne_isReal (isReal_max isReal_zero (isReal_sub cOne_isReal (isReal_mul hv hv)))) ?_
  obtain ⟨r, hr, hre⟩ := cOne_pos
  refine le_min ?_ (le_max_left _ _)
  rw [hre]
  exact_mod_cast hr.le

/-- With every entry of the features and of the class weights real, every logit is real. -/
theorem logit_isReal (x : Fin 512 → Fin 512 → EReal) (w : Fin 100000 → Fin 512 → EReal) (lab : Fin 512 → BitVec 32)
    (hx : ∀ b k, IsReal (x b k)) (hw : ∀ c k, IsReal (w c k)) (b : Fin 512) (c : Fin 100000) :
    IsReal (logit x w lab b c) := by
  unfold logit
  have hc := cosAt_isReal x w hx hw b c
  exact isReal_mul (isReal_ite (margin_isReal _ hc) hc) cS_isReal

end ArcLoss

end
-- ==== Proof.PreFacts.lean ====
/-
  What the precondition says of the inputs: every entry of the two float arrays is a real number, and every label word,
  read signed, lies in [0, 100000).
-/
import proofs.«403486_j49091476193958_1_alg».proof.Pre_finite_inputs
import proofs.«403486_j49091476193958_1_alg».proof.Proof.LibERealSums
import Idealize.ShloMosaic.Lib.ReduceAll
import Idealize.ShloMosaic.Lib.StableHlo.Predicate
import Idealize.ShloMosaic.PureOps.Ideal.Laws
import Idealize.ShloMosaic.Lib.ValueIdx

noncomputable section

namespace ArcLoss

open Idealize.ShloMosaic ERealSums

/-- The rank-0 shape has one index: two of them agree on every axis, there being none. -/
instance subsingleton_scalarIdx : Subsingleton Cert.Pre_finite_inputs.S_.Idx :=
  ⟨fun _ _ => funext fun d => d.elim0⟩

/-- A truth value written as a one-bit word is the word 1 exactly when it is true. -/
theorem ofBool_eq_one_iff {b : Bool} : BitVec.ofBool b = 1#1 ↔ b = true := by cases b <;> decide

/-- The f32 pattern with all exponent bits set, sign and fraction clear, denotes `+∞`. -/
theorem ofBits_f32_inf : Ideal.ofBits .f32 0x7F800000#32 = ⊤ := by simp [Ideal.ofBits, Ideal.ieee]

/-- An extended real whose absolute value `max a (-a)` lies strictly below `⊤` is a real number:
    `a = ⊤` makes the maximum `⊤` through its first argument, `a = ⊥` through its second (`-⊥ = ⊤`). -/
theorem isReal_of_abs_lt_top {a : EReal} (h : max a (-a) < ⊤) : IsReal a := by
  rw [max_lt_iff] at h
  refine isReal_of_ne (ne_of_lt h.1) ?_
  rintro rfl
  exact absurd h.2 (by simp)

/-- The comparison `|a| < +∞`, as the one-bit word the ideal comparison gives, being 1 says `a` is real. -/
theorem isReal_of_cmp_abs_inf {a : EReal}
    (h : Ideal.cmp .olt (max a (-a)) (Ideal.ofBits .f32 0x7F800000#32) = 1#1) : IsReal a := by
  rw [ofBits_f32_inf] at h
  simp only [Ideal.cmp, ofBool_eq_one_iff, decide_eq_true_eq] at h
  exact isReal_of_abs_lt_top h

/-- The precondition, all ones, read back entry by entry. -/
theorem pre_decode [Cert.Pre_finite_inputs.Facts]
    (x : FVec Ideal Cert.Pre_finite_inputs.S512x512 .f32) (w : FVec Ideal Cert.Pre_finite_inputs.S100000x512 .f32)
    (lab : IVec Cert.Pre_finite_inputs.S512 32)
    (h : Cert.Pre_finite_inputs.fn (F := Ideal) x w lab = fun _ => 1#1) :
    (∀ i, IsReal (x i)) ∧ (∀ i, IsReal (w i)) ∧ (∀ i, 0 ≤ (lab i).toInt ∧ (lab i).toInt < 100000) := by
  -- The result has one index; read the equation there and open the chain of operations.
  have h0 := congrFun h ValueIdx.ix0
  dsimp only [Cert.Pre_finite_inputs.fn, Cert.Pre_finite_inputs.fn_part1] at h0
  -- An and of one-bit words is 1 exactly when both are: the four conjuncts, each a reduction by and that came out 1.
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ⟨?_, ?_⟩⟩
  · -- Entry `i` of the compared array is the word of `|x i| < +∞`.
    exact isReal_of_cmp_abs_inf (Host.reduce_andi_all _ _ _ _ _ h1 i)
  · exact isReal_of_cmp_abs_inf (Host.reduce_andi_all _ _ _ _ _ h2 i)
  · -- Entry `i` is the signed comparison `lab i ≥ 0`.
    have e : IntOp.cmpi .sge (lab i) 0#32 = 1#1 := Host.reduce_andi_all _ _ _ _ _ h3 i
    have := IntOp.cmpi_sge.1 e
    rwa [show (0#32 : BitVec 32).toInt = 0 from by decide] at this
  · -- Entry `i` is the signed comparison `lab i < 100000`.
    have e : IntOp.cmpi .slt (lab i) 100000#32 = 1#1 := Host.reduce_andi_all _ _ _ _ _ h4 i
    have := IntOp.cmpi_slt.1 e
    rwa [show (100000#32 : BitVec 32).toInt = 100000 from by decide] at this

end ArcLoss

end
-- ==== Proof.lean ====
/-
  The certificate of the label-smoothed ArcFace loss kernel against its jnp reference: the three programs run, and over
  the extended reals the kernel's result equals the reference's.

  Both programs compute, for every batch row, the logits z (normalised features times normalised class weights, the
  additive angular margin at the row's label, scaled by s) and the loss −(1 − e)·lp(label) − (e / C)·Σ_c lp(c) of
  lp = log-softmax(z), and return the mean over the batch.  The reference takes the log-softmax over the whole row at
  once; the kernel streams the class axis in 100 blocks of 1000, carrying a running maximum, a sum of exponentials
  rescaled whenever the maximum moves, the sum of the logits and the label logit, and closes with
  lp(label) = tg − m − log l and Σ_c lp(c) = so − C·m − C·log l.  For real logits the two are one number
  (`ArcLoss.onlineRowLoss_eq`); the logits are real because the inputs are finite (`ArcLoss.logit_isReal`), and the
  reference's indexing `a[rows, label]` reads and writes the label's own column because every label lies in
  [0, 100000), which the precondition states.
-/
import proofs.«403486_j49091476193958_1_alg».proof.Defs
import proofs.«403486_j49091476193958_1_alg».proof.Proof.Gen.Kernel
import proofs.«403486_j49091476193958_1_alg».proof.Proof.Gen.Kernel.Skeleton
import proofs.«403486_j49091476193958_1_alg».proof.Proof.Gen.Kernel.Launch
import proofs.«403486_j49091476193958_1_alg».proof.Proof.Gen.Kernel.Points
import proofs.«403486_j49091476193958_1_alg».proof.Proof.Gen.Kernel.Frame
import proofs.«403486_j49091476193958_1_alg».proof.Proof.Gen.KernelIdeal
import proofs.«403486_j49091476193958_1_alg».proof.Proof.Gen.KernelIdeal.Skeleton
import proofs.«403486_j49091476193958_1_alg».proof.Proof.Gen.KernelIdeal.Launch
import proofs.«403486_j49091476193958_1_alg».proof.Proof.Gen.KernelIdeal.Points
import proofs.«403486_j49091476193958_1_alg».proof.Proof.Gen.KernelIdeal.Frame
import proofs.«403486_j49091476193958_1_alg».proof.Proof.Gen.ReferenceIdeal
import proofs.«403486_j49091476193958_1_alg».proof.Proof.Gen.Pre_finite_inputs
import proofs.«403486_j49091476193958_1_alg».proof.Proof.RefRun
import proofs.«403486_j49091476193958_1_alg».proof.Proof.RefRead
import proofs.«403486_j49091476193958_1_alg».proof.Proof.KValue
import proofs.«403486_j49091476193958_1_alg».proof.Proof.RLogit
import proofs.«403486_j49091476193958_1_alg».proof.Proof.RLoss
import proofs.«403486_j49091476193958_1_alg».proof.Proof.OnlineSoftmax
import proofs.«403486_j49091476193958_1_alg».proof.Proof.LogitReal
import proofs.«403486_j49091476193958_1_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx ArcLoss

/-- A word that is non-negative and below 100000 read signed is below 100000 read unsigned. -/
theorem toNat_lt_of_toInt (w : BitVec 32) (h0 : 0 ≤ w.toInt) (h1 : w.toInt < 100000) : w.toNat < 100000 := by
  rw [BitVec.toInt_eq_toNat_cond] at h0 h1
  split at h0 <;> omega

/-- THE TWO RESULTS ARE ONE NUMBER.  From memories that agree on the arguments and satisfy the precondition, the
    reference's result term is the kernel's result: the reference's result is the batch mean of the whole-row losses of
    its logit rows, its logits are the specification's, the kernel's result is the batch mean of the one-pass losses of
    the same rows, and on real logits with a label inside the row the one-pass loss is the whole-row loss. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v86 (F := Ideal) m' c = Cert.KernelIdeal.LossValue.result m c := by
  rw [Cert.ReferenceIdeal.Read.val_main_v86_eq, hag.1, hag.2.1, hag.2.2]
  obtain ⟨hx, hw, hl⟩ := @ArcLoss.pre_decode Cert.Pre_finite_inputs.Gen.facts _ _ _ (hpre c)
  have h0 : ∀ b : Fin 512, 0 ≤ (m ((c.tc : Thread Cert.KernelIdeal.nD Cert.KernelIdeal.τ).loc Cert.KernelIdeal.main_arg2) (ix1 b)).toInt :=
    fun b => (hl (ix1 b)).1
  have h1 : ∀ b : Fin 512, (m ((c.tc : Thread Cert.KernelIdeal.nD Cert.KernelIdeal.τ).loc Cert.KernelIdeal.main_arg2) (ix1 b)).toInt < 100000 :=
    fun b => (hl (ix1 b)).2
  have h1' : ∀ b : Fin 512, (m ((c.tc : Thread Cert.KernelIdeal.nD Cert.KernelIdeal.τ).loc Cert.KernelIdeal.main_arg2) (ix1 b)).toNat < 100000 :=
    fun b => toNat_lt_of_toInt _ (h0 b) (h1 b)
  rw [Cert.ReferenceIdeal.RefValue.loss_eq _ _ _ h0 h1']
  funext i
  show batchMean _ = batchMean _
  refine congrArg batchMean (funext fun b => ?_)
  rw [show (fun c' : Fin 100000 => Cert.ReferenceIdeal.Read.val_main_v63 (F := Ideal) _ _ _ (ix2 b c')) = _ from
    funext fun c' => Cert.ReferenceIdeal.RefValue.logits_apply _ _ _ h0 h1 b c']
  exact (ArcLoss.onlineRowLoss_eq _ _ (h1' b)
    (fun c' => ArcLoss.logit_isReal _ _ _ (fun b' k => hx (ix2 b' k)) (fun r k => hw (ix2 r k)) b c')).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories agreeing on the arguments, both idealized programs run and end with the same
    result, the arguments unchanged. -/
theorem algebraic : Cert.algebraic_KernelIdeal_ReferenceIdeal := by
  intro m ρ m' ρ' hpre hagree
  refine ⟨fun c => Cert.KernelIdeal.LossValue.result m c, Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  exact results_agree m m' hpre c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
